-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1000 : Shape := ⟨2, ![50000, 1000]⟩
abbrev S50000 : Shape := ⟨1, ![50000]⟩
abbrev S_ : Shape := ⟨0, ![]⟩

class Facts : Prop where
  bcast_S_S50000x1000 : S_.BroadcastsInDim S50000x1000 (![] : Fin 0 → Fin S50000x1000.rank)
  reducesTo_S50000x1000_S_d0_1 : S50000x1000.ReducesTo [0, 1] S_
  h_S_ : 0 < S_.numel

variable [Facts]

def fn {F : FTy → Type} [FloatOps F] (main_arg0 : FVec F S50000x1000 .f32) (main_arg1 : IVec S50000 32) : IVec S_ 1 :=
  let main_v0 : FVec F S50000x1000 .f32 := Host.absf main_arg0
  let main_cst : FVec F S_ .f32 := constant S_ .f32 0x7F800000#32
  let main_v1 : FVec F S50000x1000 .f32 := broadcastInDim S50000x1000 ![] bcast_S_S50000x1000 main_cst
  let main_v2 : IVec S50000x1000 1 := cmpf .olt main_v0 main_v1
  let main_c : IVec S_ 1 := constantI S_ 1 1#1
  let main_v3 : IVec S_ 1 := (fun x v => Host.reduce IntOp.andi x v reducesTo_S50000x1000_S_d0_1 h_S_) main_v2 main_c
  main_v3
-- ==== Kernel.lean ====
abbrev S50000x1000 : Shape := ⟨2, ![50000, 1000]⟩
abbrev S50000 : Shape := ⟨1, ![50000]⟩
abbrev S50000x1 : Shape := ⟨2, ![50000, 1]⟩
abbrev S15x1000 : Shape := ⟨2, ![15, 1000]⟩
abbrev S1000x1000 : Shape := ⟨2, ![1000, 1000]⟩
abbrev S1000x1 : Shape := ⟨2, ![1000, 1]⟩
abbrev S1x1000 : Shape := ⟨2, ![1, 1000]⟩
abbrev S1000 : Shape := ⟨1, ![1000]⟩
abbrev S1000x15 : Shape := ⟨2, ![1000, 15]⟩
abbrev S_ : Shape := ⟨0, ![]⟩

abbrev nBuf : Space → Nat
  | .hbm => 33
  | .vmem => 10
  | .smem => 0
  | _ => 0

abbrev bufTy : (tb : Table) → Fin (tcTables nBuf tb) → BufTy
  | .hbm, ⟨0, _⟩ => ⟨S50000x1000, .f32⟩
  | .hbm, ⟨1, _⟩ => ⟨S50000, .i32⟩
  | .hbm, ⟨2, _⟩ => ⟨S50000x1, .i32⟩
  | .hbm, ⟨3, _⟩ => ⟨S15x1000, .f32⟩
  | .hbm, ⟨4, _⟩ => ⟨S15x1000, .f32⟩
  | .hbm, ⟨5, _⟩ => ⟨S15x1000, .f32⟩
  | .hbm, ⟨6, _⟩ => ⟨S1000x15, .f32⟩
  | .hbm, ⟨7, _⟩ => ⟨S1000x15, .f32⟩
  | .hbm, ⟨8, _⟩ => ⟨S1000x15, .f32⟩
  | .hbm, ⟨9, _⟩ => ⟨S_, .f32⟩
  | .hbm, ⟨10, _⟩ => ⟨S1000x15, .f32⟩
  | .hbm, ⟨11, _⟩ => ⟨S1000x15, .f32⟩
  | .hbm, ⟨12, _⟩ => ⟨S1000x15, .f32⟩
  | .hbm, ⟨13, _⟩ => ⟨S1000x15, .f32⟩
  | .hbm, ⟨14, _⟩ => ⟨S1000x15, .f32⟩
  | .hbm, ⟨15, _⟩ => ⟨S1000x15, .f32⟩
  | .hbm, ⟨16, _⟩ => ⟨S_, .f32⟩
  | .hbm, ⟨17, _⟩ => ⟨S1000x15, .f32⟩
  | .hbm, ⟨18, _⟩ => ⟨S1000x15, .f32⟩
  | .hbm, ⟨19, _⟩ => ⟨S_, .f32⟩
  | .hbm, ⟨20, _⟩ => ⟨S1000x15, .f32⟩
  | .hbm, ⟨21, _⟩ => ⟨S1000x15, .i1⟩
  | .hbm, ⟨22, _⟩ => ⟨S1000x15, .f32⟩
  | .hbm, ⟨23, _⟩ => ⟨S_, .f32⟩
  | .hbm, ⟨24, _⟩ => ⟨S_, .f32⟩
  | .hbm, ⟨25, _⟩ => ⟨S1000x15, .f32⟩
  | .hbm, ⟨26, _⟩ => ⟨S1000x15, .f32⟩
  | .hbm, ⟨27, _⟩ => ⟨S_, .f32⟩
  | .hbm, ⟨28, _⟩ => ⟨S1000, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1000x1000, .f32⟩
  | .local _ .vmem, ⟨1, _⟩ => ⟨S1000x1000, .f32⟩
  | .local _ .vmem, ⟨2, _⟩ => ⟨S1000x1, .i32⟩
  | .local _ .vmem, ⟨3, _⟩ => ⟨S1000x1, .i32⟩
  | .local _ .vmem, ⟨4, _⟩ => ⟨S15x1000, .f32⟩
  | .local _ .vmem, ⟨5, _⟩ => ⟨S15x1000, .f32⟩
  | .local _ .vmem, ⟨6, _⟩ => ⟨S15x1000, .f32⟩
  | .local _ .vmem, ⟨7, _⟩ => ⟨S15x1000, .f32⟩
  | .local _ .vmem, ⟨8, _⟩ => ⟨S15x1000, .f32⟩
  | .local _ .vmem, ⟨9, _⟩ => ⟨S15x1000, .f32⟩
  | _, _ => ⟨S50000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v220 : BitVec 1 := Scalar.cmpi .eq arg0 c49_i32
  let v221 : BitVec 32 := Scalar.extui v220
  let c0_i32_65 : BitVec 32 := 0#32
  let v222 : BitVec 1 := Scalar.cmpi .ne v221 c0_i32_65
  v222

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S15x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S15x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S50000_S50000x1 : S50000.ShapeCasts S50000x1
  inb_S15x1000_S15x1000_0_0 : ∀ a, (![0, 0] : Fin 2 → Nat) a + S15x1000.size a ≤ S15x1000.size a
  h_S15x1000 : 0 < S15x1000.numel
  shapeCasts_S15x1000_S15x1000 : S15x1000.ShapeCasts S15x1000
  inb_S1000x1000_S1000x1000_0_0 : ∀ a, (![0, 0] : Fin 2 → Nat) a + S1000x1000.size a ≤ S1000x1000.size a
  h_S1000x1000 : 0 < S1000x1000.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1x1000_d1_w32 : S1x1000.Iotas .tc 32 [1]
  broadcasts_S1000x1_S1000x1000 : S1000x1.Broadcasts S1000x1000
  broadcasts_S1x1000_S1000x1000 : S1x1000.Broadcasts S1000x1000
  natLt_1_32 : 1 < 32
  reduces_S1000x1000_S1000 : S1000x1000.Reduces [0] S1000
  shapeCasts_S1000_S1x1000 : S1000.ShapeCasts S1x1000
  concatenates_S1x1000_S1x1000_S1x1000_S1x1000_S1x1000_S1x1000_S1x1000_S1x1000_S1x1000_S1x1000_S1x1000_S1x1000_S1x1000_S1x1000_S1x1000_S15x1000_d0 : Shape.Concatenates [S1x1000, S1x1000, S1x1000, S1x1000, S1x1000, S1x1000, S1x1000, S1x1000, S1x1000, S1x1000, S1x1000, S1x1000, S1x1000, S1x1000, S1x1000] S15x1000 0
  transposes_S15x1000_S1000x15_1_0 : S15x1000.Transposes [1, 0] S1000x15
  bcast_S_S1000x15 : S_.BroadcastsInDim S1000x15 (![] : Fin 0 → Fin S1000x15.rank)
  reducesTo_S1000x15_S1000_d1 : S1000x15.ReducesTo [1] S1000
  h_S_ : 0 < S_.numel
  reducesTo_S1000_S_d0 : S1000.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1000.size a ≤ S50000x1000.size a
  hwx0_0 : ∀ i : grid0.Coords, EltTy.bits .f32 = 32 ∨ (Rect.block (s := S50000x1000) S1000x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S50000x1.size a
  hwx0_1 : ∀ i : grid0.Coords, EltTy.bits .i32 = 32 ∨ (Rect.block (s := S50000x1) S1000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S15x1000.size a ≤ S15x1000.size a
  hwx0_2 : ∀ i : grid0.Coords, EltTy.bits .f32 = 32 ∨ (Rect.block (s := S15x1000) S15x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S15x1000.size a ≤ S15x1000.size a
  hwx0_3 : ∀ i : grid0.Coords, EltTy.bits .f32 = 32 ∨ (Rect.block (s := S15x1000) S15x1000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S15x1000.size a ≤ S15x1000.size a
  hwx0_4 : ∀ i : grid0.Coords, EltTy.bits .f32 = 32 ∨ (Rect.block (s := S15x1000) S15x1000.size (cc0_transform_4 i) (hinb0_4 i)).WholeWords (EltTy.packing .f32)

variable [Facts₀]

abbrev win0_0 : Pipeline.Window sig grid0 :=
  Pipeline.Window.ofSpec (Memref.whole main_arg0) S1000x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S15x1000.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S15x1000.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S15x1000.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S50000x1000 : Shape := ⟨2, ![50000, 1000]⟩
abbrev S50000 : Shape := ⟨1, ![50000]⟩
abbrev S_ : Shape := ⟨0, ![]⟩
abbrev S1000 : Shape := ⟨1, ![1000]⟩
abbrev S1x1000 : Shape := ⟨2, ![1, 1000]⟩
abbrev S50000000 : Shape := ⟨1, ![50000000]⟩
abbrev S50000x1 : Shape := ⟨2, ![50000, 1]⟩
abbrev S15000 : Shape := ⟨1, ![15000]⟩
abbrev S50000000x1 : Shape := ⟨2, ![50000000, 1]⟩
abbrev S1000x15 : Shape := ⟨2, ![1000, 15]⟩

abbrev nBuf : Space → Nat
  | .hbm => 76
  | .vmem => 0
  | .smem => 0
  | _ => 0

abbrev bufTy : (tb : Table) → Fin (tcTables nBuf tb) → BufTy
  | .hbm, ⟨0, _⟩ => ⟨S50000x1000, .f32⟩
  | .hbm, ⟨1, _⟩ => ⟨S50000, .i32⟩
  | .hbm, ⟨2, _⟩ => ⟨S_, .f32⟩
  | .hbm, ⟨3, _⟩ => ⟨S50000x1000, .f32⟩
  | .hbm, ⟨4, _⟩ => ⟨S50000x1000, .f32⟩
  | .hbm, ⟨5, _⟩ => ⟨S50000x1000, .f32⟩
  | .hbm, ⟨6, _⟩ => ⟨S50000x1000, .i32⟩
  | .hbm, ⟨7, _⟩ => ⟨S_, .i32⟩
  | .hbm, ⟨8, _⟩ => ⟨S50000x1000, .i32⟩
  | .hbm, ⟨9, _⟩ => ⟨S50000x1000, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S50000x1000, .i32⟩
  | .hbm, ⟨14, _⟩ => ⟨S50000x1000, .i32⟩
  | .hbm, ⟨15, _⟩ => ⟨S_, .i32⟩
  | .hbm, ⟨16, _⟩ => ⟨S50000x1000, .i32⟩
  | .hbm, ⟨17, _⟩ => ⟨S50000x1000, .i32⟩
  | .hbm, ⟨18, _⟩ => ⟨S1000, .i32⟩
  | .hbm, ⟨19, _⟩ => ⟨S1x1000, .i32⟩
  | .hbm, ⟨20, _⟩ => ⟨S_, .i32⟩
  | .hbm, ⟨21, _⟩ => ⟨S1x1000, .i32⟩
  | .hbm, ⟨22, _⟩ => ⟨S1x1000, .i32⟩
  | .hbm, ⟨23, _⟩ => ⟨S50000x1000, .i32⟩
  | .hbm, ⟨24, _⟩ => ⟨S50000x1000, .i32⟩
  | .hbm, ⟨25, _⟩ => ⟨S50000000, .i32⟩
  | .hbm, ⟨26, _⟩ => ⟨S50000x1, .i32⟩
  | .hbm, ⟨27, _⟩ => ⟨S1000, .i32⟩
  | .hbm, ⟨28, _⟩ => ⟨S1x1000, .i32⟩
  | .hbm, ⟨29, _⟩ => ⟨S50000x1000, .i32⟩
  | .hbm, ⟨30, _⟩ => ⟨S50000x1000, .i32⟩
  | .hbm, ⟨31, _⟩ => ⟨S50000x1000, .i1⟩
  | .hbm, ⟨32, _⟩ => ⟨S50000x1000, .f32⟩
  | .hbm, ⟨33, _⟩ => ⟨S_, .f32⟩
  | .hbm, ⟨34, _⟩ => ⟨S50000000, .f32⟩
  | .hbm, ⟨35, _⟩ => ⟨S_, .f32⟩
  | .hbm, ⟨36, _⟩ => ⟨S15000, .f32⟩
  | .hbm, ⟨37, _⟩ => ⟨S50000000x1, .i32⟩
  | .hbm, ⟨38, _⟩ => ⟨S15000, .f32⟩
  | .hbm, ⟨39, _⟩ => ⟨S1000x15, .f32⟩
  | .hbm, ⟨40, _⟩ => ⟨S50000000, .f32⟩
  | .hbm, ⟨41, _⟩ => ⟨S_, .f32⟩
  | .hbm, ⟨42, _⟩ => ⟨S15000, .f32⟩
  | .hbm, ⟨43, _⟩ => ⟨S50000000x1, .i32⟩
  | .hbm, ⟨44, _⟩ => ⟨S15000, .f32⟩
  | .hbm, ⟨45, _⟩ => ⟨S1000x15, .f32⟩
  | .hbm, ⟨46, _⟩ => ⟨S50000000, .f32⟩
  | .hbm, ⟨47, _⟩ => ⟨S_, .f32⟩
  | .hbm, ⟨48, _⟩ => ⟨S15000, .f32⟩
  | .hbm, ⟨49, _⟩ => ⟨S50000000x1, .i32⟩
  | .hbm, ⟨50, _⟩ => ⟨S15000, .f32⟩
  | .hbm, ⟨51, _⟩ => ⟨S1000x15, .f32⟩
  | .hbm, ⟨52, _⟩ => ⟨S_, .f32⟩
  | .hbm, ⟨53, _⟩ => ⟨S1000x15, .f32⟩
  | .hbm, ⟨54, _⟩ => ⟨S1000x15, .f32⟩
  | .hbm, ⟨55, _⟩ => ⟨S1000x15, .f32⟩
  | .hbm, ⟨56, _⟩ => ⟨S1000x15, .f32⟩
  | .hbm, ⟨57, _⟩ => ⟨S1000x15, .f32⟩
  | .hbm, ⟨58, _⟩ => ⟨S1000x15, .f32⟩
  | .hbm, ⟨59, _⟩ => ⟨S_, .f32⟩
  | .hbm, ⟨60, _⟩ => ⟨S1000x15, .f32⟩
  | .hbm, ⟨61, _⟩ => ⟨S1000x15, .f32⟩
  | .hbm, ⟨62, _⟩ => ⟨S_, .f32⟩
  | .hbm, ⟨63, _⟩ => ⟨S1000x15, .f32⟩
  | .hbm, ⟨64, _⟩ => ⟨S1000x15, .i1⟩
  | .hbm, ⟨65, _⟩ => ⟨S1000x15, .f32⟩
  | .hbm, ⟨66, _⟩ => ⟨S_, .f32⟩
  | .hbm, ⟨67, _⟩ => ⟨S_, .f32⟩
  | .hbm, ⟨68, _⟩ => ⟨S1000x15, .f32⟩
  | .hbm, ⟨69, _⟩ => ⟨S1000x15, .f32⟩
  | .hbm, ⟨70, _⟩ => ⟨S_, .f32⟩
  | .hbm, ⟨71, _⟩ => ⟨S1000, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S50000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_call1_v0 : Ref sig .tc := ⟨.hbm, 67, rfl⟩
abbrev main_call1_v1 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩

abbrev nD : Nat := 1
abbrev τ : Topo := Topo.v7x

variable {F : FTy → Type} [FloatOps F]

class Facts₀ : Prop where
  bcast_S_S50000x1000 : S_.BroadcastsInDim S50000x1000 (![] : Fin 0 → Fin S50000x1000.rank)
  bcast_S1000_S1x1000_1 : S1000.BroadcastsInDim S1x1000 (![1] : Fin 1 → Fin S1x1000.rank)
  bcast_S_S1x1000 : S_.BroadcastsInDim S1x1000 (![] : Fin 0 → Fin S1x1000.rank)
  bcast_S1x1000_S50000x1000_0_1 : S1x1000.BroadcastsInDim S50000x1000 (![0, 1] : Fin 2 → Fin S50000x1000.rank)
  shapeCasts_S50000x1000_S50000000 : S50000x1000.ShapeCasts S50000000
  bcast_S50000_S50000x1_0 : S50000.BroadcastsInDim S50000x1 (![0] : Fin 1 → Fin S50000x1.rank)
  bcast_S50000x1_S50000x1000_0_1 : S50000x1.BroadcastsInDim S50000x1000 (![0, 1] : Fin 2 → Fin S50000x1000.rank)
  bcast_S_S50000000 : S_.BroadcastsInDim S50000000 (![] : Fin 0 → Fin S50000000.rank)
  bcast_S_S15000 : S_.BroadcastsInDim S15000 (![] : Fin 0 → Fin S15000.rank)
  bcast_S50000000_S50000000x1_0 : S50000000.BroadcastsInDim S50000000x1 (![0] : Fin 1 → Fin S50000000x1.rank)
  shapeCasts_S15000_S1000x15 : S15000.ShapeCasts S1000x15
  bcast_S_S1000x15 : S_.BroadcastsInDim S1000x15 (![] : Fin 0 → Fin S1000x15.rank)
  reducesTo_S1000x15_S1000_d1 : S1000x15.ReducesTo [1] S1000
  h_S_ : 0 < S_.numel
  reducesTo_S1000_S_d0 : S1000.ReducesTo [0] S_
  scatter_S15000_S50000000x1_S50000000_n_0_0_1_wf : ScatterDims.WF S15000 S50000000x1 S50000000 [] [0] [0] 1

variable [Facts₀]

def scatter_S15000_S50000000x1_S50000000_n_0_0_1 : ScatterDims S15000 S50000000x1 S50000000 where
  updateWindowDims := []
  insertedWindowDims := [0]
  scatterDimsToOperandDims := [0]
  indexVectorDim := 1
  wf := scatter_S15000_S50000000x1_S50000000_n_0_0_1_wf

class Facts : Prop extends Facts₀ where

variable [Facts]
-- ==== Proof.RefScatter.lean ====
/-
  The reference's accumulating scatter read at one element.

  The scatter adds each of the 50,000,000 updates into a vector of 15000 at the position its index word names, read as
  a signed integer; an update whose position is outside the vector is dropped. So element k of the result is the
  operand's element k plus the sum of the updates whose index word is k.
-/
import proofs.«109215_j47012712022077_1_alg».proof.Proof.RefReadP
import Idealize.ShloMosaic.Lib.ValueIdx
import Idealize.ShloMosaic.PureOps.Ideal.Laws

noncomputable section

open Idealize.ShloMosaic Idealize.ShloMosaic.ValueIdx

namespace Cert.ReferenceIdeal.Scatter

open Cert.ReferenceIdeal Cert.ReferenceIdeal.Gen

/-- Update `j`'s place in the [50000000, 1] array of index words. -/
abbrev wordAt (j : S50000000.Idx) : S50000000x1.Idx := fun a => match a with
  | ⟨0, _⟩ => ⟨(j 0).val, (j 0).isLt⟩
  | ⟨1, _⟩ => ⟨0, Nat.one_pos⟩

/-- The printed scatter's dimension record. -/
abbrev scatterRec := scatter_S15000_S50000000x1_S50000000_n_0_0_1

/-- The place an update reads its index word from: the update's own position on axis 0, and 0 on the index
    vector's axis (which has one entry). -/
theorem siIdx_eq (j : S50000000.Idx) (c : Fin scatterRec.scatterDimsToOperandDims.length) :
    scatterRec.siIdx j c = wordAt j := by
  have hc : c.val = 0 := by
    have := c.isLt
    simp only [scatterRec, scatter_S15000_S50000000x1_S50000000_n_0_0_1, List.length_singleton] at this
    omega
  funext b
  fin_cases b
  · unfold ScatterDims.siIdx
    split
    · next hb => exact absurd hb (by decide)
    · apply Fin.ext
      unfold ScatterDims.siCoord
      simp only [Fin.coe_cast]
      exact congrArg (fun a => (j a).val) (Subsingleton.elim (α := Fin 1) _ _)
  · unfold ScatterDims.siIdx
    split
    · apply Fin.ext
      exact hc
    · next hb => exact absurd rfl hb

/-- The window's start on the operand's one axis is the update's index word, read signed. -/
theorem start_eq (j : S50000000.Idx) (idx : IVec S50000000x1 32) (a : Fin S15000.rank) :
    scatterRec.start j idx a = (idx (wordAt j)).toInt := by
  have ha : a ∈ scatterRec.scatterDimsToOperandDims := by
    have : a = 0 := Subsingleton.elim (α := Fin 1) _ _
    subst this
    simp [scatterRec, scatter_S15000_S50000000x1_S50000000_n_0_0_1]
  rw [ScatterDims.start, dif_pos ha, siIdx_eq]

/-- The operand's one axis is an inserted window axis: the window coordinate on it is 0. -/
theorem window_eq (j : S50000000.Idx) (a : Fin S15000.rank) : scatterRec.window j a = 0 := by
  have ha : a ∉ scatterRec.sKept := by
    have : a = 0 := Subsingleton.elim (α := Fin 1) _ _
    subst this
    decide
  rw [ScatterDims.window, dif_neg ha]

/-- An update lands at element `k` exactly when its index word, read signed, is `k`. -/
theorem resultIdx?_eq_some_iff (j : S50000000.Idx) (idx : IVec S50000000x1 32) (k : S15000.Idx) :
    scatterRec.resultIdx? j idx = some k ↔ (idx (wordAt j)).toInt = ((k 0).val : ℤ) := by
  have hk : (k 0).val < 15000 := (k 0).isLt
  unfold ScatterDims.resultIdx?
  split
  · next h =>
    rw [Option.some.injEq]
    constructor
    · intro e
      have h0 := h 0
      rw [start_eq, window_eq] at h0
      have e0 := congrArg (fun f => (f 0).val) e
      simp only [start_eq, window_eq] at e0
      omega
    · intro e
      funext a
      have : a = 0 := Subsingleton.elim (α := Fin 1) _ _
      subst this
      apply Fin.ext
      simp only [start_eq, window_eq]
      omega
  · next h =>
    constructor
    · intro e; exact absurd e (by simp)
    · intro e
      exfalso
      apply h
      intro a
      have : a = 0 := Subsingleton.elim (α := Fin 1) _ _
      subst this
      rw [start_eq, window_eq]
      have : S15000.size 0 = 15000 := rfl
      omega

theorem scatterAdd_apply (x : S15000.Idx → EReal) (idx : IVec S50000000x1 32) (upd : S50000000.Idx → EReal)
    (k : S15000.Idx) :
    Host.scatterAdd (F := Ideal) (φ := .f32) scatter_S15000_S50000000x1_S50000000_n_0_0_1 x idx upd k
      = x k + ∑ j : S50000000.Idx, if (idx (wordAt j)).toInt = ((k 0).val : ℤ) then upd j else 0 := by
  -- the sum over the updates that land at `k` is the sum over all updates of the update or 0
  rw [Host.scatterAdd, Ideal.hostScatterAdd_def, Ideal.hostScatterAdd, Finset.sum_filter]
  refine congrArg (fun t => x k + t) ?_
  apply Finset.sum_congr rfl
  intro j _
  simp only [resultIdx?_eq_some_iff]

end Cert.ReferenceIdeal.Scatter

end
-- ==== Proof.HistSpec.lean ====
/-
  The class-wise calibration histogram both programs compute, stated once over plain index functions.

  For a table `X : [50000, 1000]` of confidences every entry `x` falls in the bin
  `bin x = min 14 (max 0 (⌈15·x⌉ - 1))`, the ceiling converted to a signed 32-bit word, saturating. For a class `c` and a
  bin `b` three sums over the 50000 rows `n` are kept: how many entries `X n c` fall in bin `b` (`cnt`), the sum of
  those entries (`conf`), and how many of them sit in the column the row's label names (`corr`). The indicator of a
  bin is the conversion to a float of the one-bit comparison, so each summand is a product of extended reals with a
  factor that is zero or one; no sum is reordered here, and none needs the entries to be finite.

  The scalar that both programs return is one fixed function `tail` of the three [1000, 15] tables: per cell
  `|conf / max cnt 1 - corr / max cnt 1| · cnt / 50000` where `cnt > 0`, summed over bins, then over classes, divided
  by 1000. It is stated over the vector operations themselves and is never opened.
-/
import Idealize.ShloMosaic.PureOps.Ideal
import Idealize.ShloMosaic.Lib.ValueIdx

noncomputable section

namespace Cert.Hist

open Idealize.ShloMosaic Idealize.ShloMosaic.ValueIdx

abbrev S_ : Shape := ⟨0, ![]⟩
abbrev S1000 : Shape := ⟨1, ![1000]⟩
abbrev S1000x15 : Shape := ⟨2, ![1000, 15]⟩
abbrev S50000 : Shape := ⟨1, ![50000]⟩
abbrev S50000x1000 : Shape := ⟨2, ![50000, 1000]⟩

/-- The bin of one confidence, as the signed 32-bit word both programs compute:
    `min 14 (max 0 (⌈x · 15⌉ - 1))`. -/
def binw (x : EReal) : BitVec 32 :=
  IntOp.minsi 14#32 (IntOp.maxsi 0#32 (IntOp.subi
    (Ideal.fptosi 32 (Ideal.liftRound Int.ceil (x * Ideal.ofBits .f32 0x41700000#32))) 1#32))

/-- One for an entry in bin `b`, zero otherwise: the one-bit comparison converted to a float. -/
def inBin (x : EReal) (b : BitVec 32) : EReal :=
  FloatOps.uitofp (F := Ideal) .f32 (IntOp.cmpi .eq (binw x) b)

/-- One when the row's label `l` names class `c`, zero otherwise. -/
def isLabel (l c : BitVec 32) : EReal :=
  FloatOps.uitofp (F := Ideal) .f32 (IntOp.cmpi .eq l c)

variable (X : S50000x1000.Idx → EReal) (L : S50000.Idx → BitVec 32)

/-- Row `n`'s contribution to the count of class `c`, bin `b`. -/
def cntTerm (c : Fin 1000) (b : Fin 15) (n : Fin 50000) : EReal :=
  inBin (X (ix2 n c)) (BitVec.ofNat 32 b.val)

/-- Row `n`'s contribution to the summed confidence of class `c`, bin `b`. -/
def confTerm (c : Fin 1000) (b : Fin 15) (n : Fin 50000) : EReal :=
  inBin (X (ix2 n c)) (BitVec.ofNat 32 b.val) * X (ix2 n c)

/-- Row `n`'s contribution to the number of correct predictions of class `c`, bin `b`. -/
def corrTerm (c : Fin 1000) (b : Fin 15) (n : Fin 50000) : EReal :=
  inBin (X (ix2 n c)) (BitVec.ofNat 32 b.val) * isLabel (L (ix1 n)) (BitVec.ofNat 32 c.val)

/-- The three histograms, as [1000, 15] tables: zero plus the sum over the rows. -/
def cnt : S1000x15.Idx → EReal := fun i =>
  Ideal.ofBits .f32 0x00000000#32 + ∑ n : Fin 50000, cntTerm X (i 0) (i 1) n
def conf : S1000x15.Idx → EReal := fun i =>
  Ideal.ofBits .f32 0x00000000#32 + ∑ n : Fin 50000, confTerm X (i 0) (i 1) n
def corr : S1000x15.Idx → EReal := fun i =>
  Ideal.ofBits .f32 0x00000000#32 + ∑ n : Fin 50000, corrTerm X L (i 0) (i 1) n

/-- The scalar both programs return, as one function of the three tables: the expected calibration error summed
    over bins and averaged over classes. Stated at any float instance over the vector operations, with the shape
    relations its operations take as arguments. -/
def tail {F : FTy → Type} [FloatOps F]
    (hb : S_.BroadcastsInDim S1000x15 (![] : Fin 0 → Fin S1000x15.rank))
    (hr1 : S1000x15.ReducesTo [1] S1000) (h0 : 0 < S_.numel) (hr0 : S1000.ReducesTo [0] S_)
    (n s r : FVec F S1000x15 .f32) : FVec F S_ .f32 :=
  Host.divf
    (Host.reduceAdd
      (Host.reduceAdd
        (select
          (cmpf .ogt n (broadcastInDim S1000x15 ![] hb (constant S_ .f32 0x00000000#32)))
          (mulf
            (Host.divf n (broadcastInDim S1000x15 ![] hb (constant S_ .f32 0x47435000#32)))
            (Host.absf (subf
              (Host.divf s (maximumf n (broadcastInDim S1000x15 ![] hb (constant S_ .f32 0x3F800000#32))))
              (Host.divf r (maximumf n (broadcastInDim S1000x15 ![] hb (constant S_ .f32 0x3F800000#32)))))))
          (broadcastInDim S1000x15 ![] hb (id (constant S_ .f32 0x00000000#32))))
        (constant S_ .f32 0x00000000#32) hr1 h0)
      (constant S_ .f32 0x00000000#32) hr0 h0)
    (constant S_ .f32 0x447A0000#32)

end Cert.Hist

end
-- ==== Proof.RefSeg.lean ====
/-
  The reference's index words and updates, read at the flat position of entry (n, c).

  The reference flattens the [50000, 1000] table row by row: entry (n, c) sits at position 1000 n + c. Its index word
  is `15 c + bin`, a number below 15000 since a bin word lies between 0 and 14, so the word names cell (c, bin) of the
  [1000, 15] histogram and no other. The three scatters' updates at that position are one, the entry, and the
  indicator that row n's label is c.
-/
import proofs.«109215_j47012712022077_1_alg».proof.Proof.RefReadP
import proofs.«109215_j47012712022077_1_alg».proof.Proof.HistSpec
import Idealize.ShloMosaic.Lib.ValueIdx
import Idealize.ShloMosaic.Lib.IdealHost
import Idealize.ShloMosaic.Lib.StableHlo.Predicate

noncomputable section

open Idealize.ShloMosaic Idealize.ShloMosaic.ValueIdx

namespace Cert.ReferenceIdeal.Seg

open Cert.ReferenceIdeal Cert.ReferenceIdeal.Gen Cert.ReferenceIdeal.ReadP

/-- The flat position of entry (n, c). -/
abbrev flat (n : Fin 50000) (c : Fin 1000) : S50000000.Idx := fun a => match a with
  | ⟨0, _⟩ => ⟨1000 * n.val + c.val, by have := n.isLt; have := c.isLt; show _ < 50000000; omega⟩

/-- Position 1000 n + c of the flattened table is entry (n, c): the quotient by 1000 is n, the remainder c. -/
theorem idx13_flat (n : Fin 50000) (c : Fin 1000) : idx_main_v13 (flat n c) = ix2 n c := by
  funext a
  match a with
  | ⟨0, _⟩ => exact Fin.ext (by have := c.isLt; show (1000 * n.val + c.val) / 1000 = n.val; omega)
  | ⟨1, _⟩ => exact Fin.ext (by have := c.isLt; show (1000 * n.val + c.val) % 1000 = c.val; omega)

/-- A signed maximum with zero is zero or the word itself, and is not negative; a signed minimum of 14 with a
    non-negative word is that word or 14. -/
theorem clamp_toNat_le (w : BitVec 32) : (IntOp.minsi 14#32 (IntOp.maxsi 0#32 w)).toNat ≤ 14 := by
  have h14 : (14#32 : BitVec 32).toInt = 14 := by decide
  have h0 : (0#32 : BitVec 32).toInt = 0 := by decide
  unfold IntOp.minsi
  split
  · decide
  · rename_i hc
    simp only [BitVec.slt, h14, decide_eq_true_eq, not_lt] at hc
    have hm : 0 ≤ (IntOp.maxsi 0#32 w).toInt := by
      unfold IntOp.maxsi
      split
      · rw [h0]
      · rename_i hd
        simp only [BitVec.slt, h0, decide_eq_true_eq, not_lt] at hd
        exact hd
    generalize IntOp.maxsi 0#32 w = m at hc hm
    have := m.isLt
    rw [BitVec.toInt_eq_toNat_cond] at hc hm
    split at hc <;> omega

/-- A bin word is between 0 and 14. -/
theorem binw_toNat_le (x : EReal) : (Cert.Hist.binw x).toNat ≤ 14 := by
  unfold Cert.Hist.binw
  exact clamp_toNat_le _

/-- The indicator of a bin is one or zero. -/
theorem inBin_eq (x : EReal) (b : BitVec 32) : Cert.Hist.inBin x b = if Cert.Hist.binw x = b then 1 else 0 := by
  unfold Cert.Hist.inBin
  show (((IntOp.cmpi .eq (Cert.Hist.binw x) b).toNat : ℝ) : EReal) = _
  by_cases h : Cert.Hist.binw x = b
  · rw [if_pos h, StableHlo.Predicate.cmpi_eq_iff.mpr h]
    show (((1 : ℕ) : ℝ) : EReal) = 1
    rw [Nat.cast_one, EReal.coe_one]
  · rw [if_neg h]
    have h1 : IntOp.cmpi .eq (Cert.Hist.binw x) b = 0#1 := by
      simp only [IntOp.cmpi, beq_eq_false_iff_ne.mpr h]; rfl
    rw [h1]
    show (((0 : ℕ) : ℝ) : EReal) = 0
    rw [Nat.cast_zero, EReal.coe_zero]

/-- The index word of entry (n, c) before any arithmetic: the word of c times 15 plus the bin word of the entry. -/
theorem word_eq (x0 : (⟨S50000x1000, .f32⟩ : BufTy).Contents (Elt Ideal)) (n : Fin 50000) (c : Fin 1000) :
    val_main_v13 (F := Ideal) x0 (flat n c)
      = IntOp.addi (IntOp.muli (BitVec.ofNat 32 c.val) 15#32) (Cert.Hist.binw (x0 (ix2 n c))) := by
  rw [val_main_v13_apply, idx13_flat, val_main_v12_apply, val_main_v11_apply, val_main_v10_apply, val_main_v8_apply,
    val_main_v9_apply, val_main_c_2_apply, val_main_v7_apply, val_main_v6_apply, val_main_call0_v4_apply,
    val_main_call0_v3_apply, val_main_c_1_apply, val_main_call0_v2_apply, val_main_call0_v1_apply,
    val_main_call0_v0_apply, val_main_c_0_apply, val_main_v5_apply, val_main_v4_apply, val_main_c_apply,
    val_main_v3_apply, val_main_v2_apply, val_main_v1_apply, val_main_v0_apply, val_main_cst_apply]
  rfl

/-- The index word of entry (n, c) is 15 c + its bin, as a signed integer. -/
theorem word_toInt (x0 : (⟨S50000x1000, .f32⟩ : BufTy).Contents (Elt Ideal)) (n : Fin 50000) (c : Fin 1000) :
    (val_main_v13 (F := Ideal) x0 (flat n c)).toInt = ((15 * c.val + (Cert.Hist.binw (x0 (ix2 n c))).toNat : ℕ) : ℤ) := by
  rw [word_eq]
  have hb := binw_toNat_le (x0 (ix2 n c))
  have hc := c.isLt
  generalize Cert.Hist.binw (x0 (ix2 n c)) = w at hb
  have hn : (IntOp.addi (IntOp.muli (BitVec.ofNat 32 c.val) 15#32) w).toNat = 15 * c.val + w.toNat := by
    unfold IntOp.addi IntOp.muli
    rw [BitVec.toNat_add, BitVec.toNat_mul, BitVec.toNat_ofNat]
    show ((c.val % 4294967296) * 15 % 4294967296 + w.toNat) % 4294967296 = _
    omega
  rw [StableHlo.Predicate.toInt_eq_toNat_of_lt (by rw [hn]; omega), hn]

/-- The three scatters' updates at the flat position of entry (n, c). -/
theorem ones_apply (j : S50000000.Idx) : val_main_v21 (F := Ideal) j = 1 := by
  rw [val_main_v21_apply, val_main_cst_3_apply]
  exact Ideal.ofBits_one_f32

theorem entries_apply (x0 : (⟨S50000x1000, .f32⟩ : BufTy).Contents (Elt Ideal)) (n : Fin 50000) (c : Fin 1000) :
    val_main_v26 (F := Ideal) x0 (flat n c) = x0 (ix2 n c) := by
  rw [val_main_v26_apply]
  exact congrArg x0 (idx13_flat n c)

theorem labels_apply (x1 : (⟨S50000, .i32⟩ : BufTy).Contents (Elt Ideal)) (n : Fin 50000) (c : Fin 1000) :
    val_main_v31 (F := Ideal) x1 (flat n c) = Cert.Hist.isLabel (x1 (ix1 n)) (BitVec.ofNat 32 c.val) := by
  rw [val_main_v31_apply]
  have hi : idx_main_v31 (flat n c) = ix2 n c := idx13_flat n c
  rw [hi, val_main_v20_apply, val_main_v19_apply, val_main_v17_apply, val_main_v14_apply, val_main_v18_apply,
    val_main_v16_apply, val_main_v15_apply]
  have hr : idx_main_v14 (idx_main_v17 (ix2 n c)) = ix1 n := by
    funext a
    match a with
    | ⟨0, _⟩ => rfl
  rw [hr]
  rfl

end Cert.ReferenceIdeal.Seg

end
-- ==== Proof.RefHist.lean ====
/-
  The reference's three scatter-adds are the histograms, and its result is the shared tail of them.

  Cell (c, b) of a reshaped scatter result is element 15 c + b of the scatter: zero plus the sum of the updates whose
  index word is 15 c + b. Entry (n, c') has word 15 c' + bin, which is 15 c + b exactly when c' = c and the bin is b;
  so the sum over all fifty million positions is the sum over the rows n of the update at (n, c) when the entry falls
  in bin b, and of nothing otherwise. The positions are taken row by row, so the sum over positions regroups into a
  sum over rows of a sum over columns, and the inner sum has the single term c' = c.
-/
import proofs.«109215_j47012712022077_1_alg».proof.Proof.RefReadP
import proofs.«109215_j47012712022077_1_alg».proof.Proof.RefScatter
import proofs.«109215_j47012712022077_1_alg».proof.Proof.RefSeg
import proofs.«109215_j47012712022077_1_alg».proof.Proof.HistSpec
import Idealize.ShloMosaic.Lib.ValueIdx
import Mathlib.Algebra.BigOperators.Group.Finset.Basic
import Mathlib.Data.Fintype.BigOperators

noncomputable section

open Idealize.ShloMosaic Idealize.ShloMosaic.ValueIdx

namespace Cert.ReferenceIdeal.RefHist

open Cert.ReferenceIdeal Cert.ReferenceIdeal.Gen Cert.ReferenceIdeal.ReadP

variable (x0 : (⟨S50000x1000, .f32⟩ : BufTy).Contents (Elt Ideal)) (x1 : (⟨S50000, .i32⟩ : BufTy).Contents (Elt Ideal))

/-- The positions of the flattened table are the pairs (row, column), taken row by row: position j is
    entry (j / 1000, j % 1000), and entry (n, c) is position 1000 n + c. -/
def flatEquiv : Fin 50000 × Fin 1000 ≃ S50000000.Idx where
  toFun p := Seg.flat p.1 p.2
  invFun j := (⟨(j 0).val / 1000, by have h : (j 0).val < 50000000 := (j 0).isLt; omega⟩,
               ⟨(j 0).val % 1000, Nat.mod_lt _ (by norm_num)⟩)
  left_inv p := by
    obtain ⟨n, c⟩ := p
    have hn := n.isLt
    have hc := c.isLt
    refine Prod.ext (Fin.ext ?_) (Fin.ext ?_)
    · show (1000 * n.val + c.val) / 1000 = n.val
      omega
    · show (1000 * n.val + c.val) % 1000 = c.val
      omega
  right_inv j := by
    funext a
    match a with
    | ⟨0, _⟩ =>
      exact Fin.ext (by show 1000 * ((j 0).val / 1000) + (j 0).val % 1000 = (j 0).val; omega)

/-- The sum over all positions of the updates whose index word is 15 c + b is the sum over the rows n of the
    update at (n, c) times the indicator that entry (n, c) falls in bin b. The sum over positions is regrouped
    by rows; in row n only column c can carry the word 15 c + b, since a bin word is below 15. -/
theorem sum_positions (upd : S50000000.Idx → EReal) (u : Fin 50000 → Fin 1000 → EReal)
    (hupd : ∀ n c', upd (Seg.flat n c') = u n c') (c : Fin 1000) (b : Fin 15) :
    (∑ j : S50000000.Idx,
        if (val_main_v13 (F := Ideal) x0 j).toInt = ((c.val * 15 + b.val : ℕ) : ℤ) then upd j else 0)
      = ∑ n : Fin 50000, Cert.Hist.inBin (x0 (ix2 n c)) (BitVec.ofNat 32 b.val) * u n c := by
  have hb := b.isLt
  refine (Equiv.sum_comp flatEquiv _).symm.trans ?_
  rw [Fintype.sum_prod_type]
  refine Finset.sum_congr rfl fun n _ => ?_
  rw [Finset.sum_eq_single c]
  · show (if (val_main_v13 (F := Ideal) x0 (Seg.flat n c)).toInt = _ then upd (Seg.flat n c) else 0) = _
    rw [Seg.word_toInt, hupd, Seg.inBin_eq]
    have hle := Seg.binw_toNat_le (x0 (ix2 n c))
    by_cases h : Cert.Hist.binw (x0 (ix2 n c)) = BitVec.ofNat 32 b.val
    · rw [if_pos h, one_mul, if_pos]
      rw [h, BitVec.toNat_ofNat, Nat.mod_eq_of_lt (by omega)]
      exact congrArg Nat.cast (by omega)
    · rw [if_neg h, zero_mul, if_neg]
      intro he
      apply h
      apply BitVec.eq_of_toNat_eq
      rw [BitVec.toNat_ofNat, Nat.mod_eq_of_lt (by omega)]
      have he' : 15 * c.val + (Cert.Hist.binw (x0 (ix2 n c))).toNat = c.val * 15 + b.val := by
        exact_mod_cast he
      omega
  · intro c' _ hc'
    show (if (val_main_v13 (F := Ideal) x0 (Seg.flat n c')).toInt = _ then upd (Seg.flat n c') else 0) = 0
    rw [Seg.word_toInt, if_neg]
    intro he
    have hle := Seg.binw_toNat_le (x0 (ix2 n c'))
    have he' : 15 * c'.val + (Cert.Hist.binw (x0 (ix2 n c'))).toNat = c.val * 15 + b.val := by
      exact_mod_cast he
    exact hc' (Fin.ext (by omega))
  · intro h
    exact absurd (Finset.mem_univ c) h

/-- Cell (c, b) of a scatter-add into zeros, at the index words of the table: element 15 c + b of the scatter is
    zero plus the sum of the updates with that word. -/
theorem scatter_cell (z : S15000.Idx → EReal) (hz : ∀ k, z k = Ideal.ofBits .f32 0x00000000#32)
    (w : IVec S50000000x1 32) (hw : ∀ j, w (Scatter.wordAt j) = val_main_v13 (F := Ideal) x0 j)
    (upd : S50000000.Idx → EReal) (u : Fin 50000 → Fin 1000 → EReal)
    (hupd : ∀ n c', upd (Seg.flat n c') = u n c') (c : Fin 1000) (b : Fin 15)
    (k : S15000.Idx) (hk : (k 0).val = c.val * 15 + b.val) :
    Host.scatterAdd (F := Ideal) (φ := .f32) scatter_S15000_S50000000x1_S50000000_n_0_0_1 z w upd k
      = Ideal.ofBits .f32 0x00000000#32
        + ∑ n : Fin 50000, Cert.Hist.inBin (x0 (ix2 n c)) (BitVec.ofNat 32 b.val) * u n c := by
  rw [Scatter.scatterAdd_apply, hz, ← sum_positions x0 upd u hupd c b]
  refine congrArg (_ + ·) (Finset.sum_congr rfl fun j _ => ?_)
  rw [hw, hk]

theorem cnt_eq : val_main_v25 (F := Ideal) x0 = Cert.Hist.cnt x0 := by
  funext i
  rw [val_main_v25_apply]
  unfold val_main_v24 Cert.Hist.cnt
  refine (scatter_cell x0 _ (fun k => (val_main_v22_apply k).trans rfl) _
    (fun j => (val_main_v23_apply x0 _).trans (congrArg _ (funext fun a => by
      match a with | ⟨0, _⟩ => rfl))) _ (fun _ _ => 1) (fun n c' => Seg.ones_apply _) (i 0) (i 1) _ rfl).trans ?_
  refine congrArg (_ + ·) (Finset.sum_congr rfl fun n _ => ?_)
  unfold Cert.Hist.cntTerm
  rw [mul_one]

theorem conf_eq : val_main_v30 (F := Ideal) x0 = Cert.Hist.conf x0 := by
  funext i
  rw [val_main_v30_apply]
  unfold val_main_v29 Cert.Hist.conf
  refine (scatter_cell x0 _ (fun k => (val_main_v27_apply k).trans rfl) _
    (fun j => (val_main_v28_apply x0 _).trans (congrArg _ (funext fun a => by
      match a with | ⟨0, _⟩ => rfl))) _ (fun n c' => x0 (ix2 n c')) (fun n c' => Seg.entries_apply x0 n c')
      (i 0) (i 1) _ rfl).trans ?_
  rfl

theorem corr_eq : val_main_v35 (F := Ideal) x0 x1 = Cert.Hist.corr x0 x1 := by
  funext i
  rw [val_main_v35_apply]
  unfold val_main_v34 Cert.Hist.corr
  refine (scatter_cell x0 _ (fun k => (val_main_v32_apply k).trans rfl) _
    (fun j => (val_main_v33_apply x0 _).trans (congrArg _ (funext fun a => by
      match a with | ⟨0, _⟩ => rfl))) _
      (fun n c' => Cert.Hist.isLabel (x1 (ix1 n)) (BitVec.ofNat 32 c'.val))
      (fun n c' => Seg.labels_apply x1 n c') (i 0) (i 1) _ rfl).trans ?_
  rfl

/-- The reference's result is the shared tail of the three histograms. -/
theorem result_eq : val_main_v50 (F := Ideal) x0 x1
    = Cert.Hist.tail (F := Ideal) bcast_S_S1000x15 reducesTo_S1000x15_S1000_d1 h_S_ reducesTo_S1000_S_d0
        (Cert.Hist.cnt x0) (Cert.Hist.conf x0) (Cert.Hist.corr x0 x1) := by
  rw [← cnt_eq, ← conf_eq, ← corr_eq]
  rfl

end Cert.ReferenceIdeal.RefHist

end
-- ==== Proof.KBlocks.lean ====
/-
  What one grid step adds to the three accumulators, as functions of the step's two input blocks.

  A step sees a [1000, 1000] block `x` of confidences and the [1000, 1] block `l` of its rows' labels. Every entry has
  a bin word (`binOf`); for a bin `b` the mask `maskOf b` is one where the entry's bin is `b` and zero elsewhere. Row
  `b` of the step's [15, 1000] contribution is a column sum over the block's 1000 rows: of the mask (counts), of the
  mask times the entry (confidences), of the mask times the indicator that the row's label is the column (correct
  predictions). The three contributions stack the fifteen rows; a step adds its contribution to what the
  accumulator held.
-/
import proofs.«109215_j47012712022077_1_alg».proof.Proof.Gen.KernelIdeal.Skeleton

noncomputable section

namespace Cert.KernelIdeal.Blocks

open Idealize.ShloMosaic Cert.KernelIdeal

variable {F : FTy → Type} [FloatOps F]

/-- The bin word of every entry of a block: `min 14 (max 0 (⌈15 x⌉ - 1))`. -/
abbrev binOf (x : Vec F S1000x1000 .f32) : IVec S1000x1000 32 := Gen.k0_pay6 x

/-- One where the row's label is the column's number, zero elsewhere. -/
abbrev labelOf (l : Vec F S1000x1 .i32) : FVec F S1000x1000 .f32 := Gen.k0_pay5 l

/-- One where the entry's bin is `b`, zero elsewhere. -/
def maskOf (b : BitVec 32) (x : Vec F S1000x1000 .f32) : FVec F S1000x1000 .f32 :=
  sitofp .f32 (extui 32 (cmpi .eq (binOf x) (broadcast S1000x1000 b)) Gen.natLt_1_32)

/-- The column sums of a [1000, 1000] block, as one row. -/
def colSum (y : FVec F S1000x1000 .f32) : FVec F S1x1000 .f32 :=
  shapeCast S1x1000 (multiReduction .add [0] S1000 y 0x00000000#32 Gen.reduces_S1000x1000_S1000 (.inl rfl) rfl)
    Gen.shapeCasts_S1000_S1x1000

/-- Row `b` of the step's counts, summed confidences and correct predictions. -/
def cntRow (b : BitVec 32) (x : Vec F S1000x1000 .f32) : FVec F S1x1000 .f32 := colSum (maskOf b x)
def confRow (b : BitVec 32) (x : Vec F S1000x1000 .f32) : FVec F S1x1000 .f32 := colSum (mulf (maskOf b x) x)
def corrRow (b : BitVec 32) (x : Vec F S1000x1000 .f32) (l : Vec F S1000x1 .i32) : FVec F S1x1000 .f32 :=
  colSum (mulf (maskOf b x) (labelOf l))

/-- Fifteen rows stacked. -/
def stack (row : Fin 15 → FVec F S1x1000 .f32) : FVec F S15x1000 .f32 :=
  concatenate S15x1000 0 (List.ofFn fun n : Fin 15 => (⟨S1x1000, row n⟩ : (s : Shape) × (s.Idx → F .f32)))
    Gen.concatenates_S1x1000_S1x1000_S1x1000_S1x1000_S1x1000_S1x1000_S1x1000_S1x1000_S1x1000_S1x1000_S1x1000_S1x1000_S1x1000_S1x1000_S1x1000_S15x1000_d0

/-- The step's contribution to the counts, the summed confidences and the correct predictions. -/
def cntBlk (x : Vec F S1000x1000 .f32) : FVec F S15x1000 .f32 := stack fun n => cntRow (BitVec.ofNat 32 n.val) x
def confBlk (x : Vec F S1000x1000 .f32) : FVec F S15x1000 .f32 := stack fun n => confRow (BitVec.ofNat 32 n.val) x
def corrBlk (x : Vec F S1000x1000 .f32) (l : Vec F S1000x1 .i32) : FVec F S15x1000 .f32 :=
  stack fun n => corrRow (BitVec.ofNat 32 n.val) x l

/-- The all-zero accumulator the first step starts from. -/
abbrev zero15 : Vec F S15x1000 .f32 := broadcast S15x1000 (Scalar.ofBits .f32 0x00000000#32)

end Cert.KernelIdeal.Blocks

end
-- ==== Proof.KPieces.lean ====
/-
  What each control case of the kernel body leaves in the three accumulators and in the three outputs.

  The body has two conditionals on the grid position. At the first step it stores zeros into the accumulators before
  anything else; at every step it adds the step's contribution (Blocks) to each accumulator; at the last step it copies
  the accumulators into the outputs. So after the first step an accumulator holds zero plus the step's contribution,
  after any later step what it held plus the contribution, and at the last step the outputs hold the same.
-/
import proofs.«109215_j47012712022077_1_alg».proof.Proof.Gen.KernelIdeal.Frame
import proofs.«109215_j47012712022077_1_alg».proof.Proof.KBlocks
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen Cert.KernelIdeal.Blocks

variable {F : FTy → Type} [FloatOps F]

/-- The origin of a two-dimensional block, written as a literal pair, is the all-zero offset. -/
private theorem hz : (![0, 0] : Fin 2 → Nat) = fun _ => 0 := funext fun a => by fin_cases a <;> rfl

/-- The table the first step stores into an accumulator before anything else is the all-zero table. -/
private theorem pay2_eq : (k0_pay2 : FVec F S15x1000 .f32) = zero15 := shapeCast_self _ _
private theorem pay3_eq : (k0_pay3 : FVec F S15x1000 .f32) = zero15 := shapeCast_self _ _
private theorem pay4_eq : (k0_pay4 : FVec F S15x1000 .f32) = zero15 := shapeCast_self _ _

/-- The table a step stores into the counts: what the counts held plus the fifteen stacked column sums of the bin
  masks. The kernel writes the fifteen rows out one by one; `cntBlk` stacks the same fifteen rows, bin `n` at row
  `n`, so the two sides are the same expression. -/
private theorem pay63_eq (x : Vec F S1000x1000 .f32) (xs : Vec F S15x1000 .f32) :
    k0_pay63 (k0_pay6 x) (k0_pay8 x) (k0_pay12 x) (k0_pay17 (k0_pay6 x)) (k0_pay21 (k0_pay6 x)) (k0_pay25 (k0_pay6 x))
      (k0_pay29 (k0_pay28 (k0_pay6 x))) (k0_pay33 (k0_pay6 x)) (k0_pay37 (k0_pay6 x)) (k0_pay41 (k0_pay6 x))
      (k0_pay46 (k0_pay6 x) k0_pay44) (k0_pay50 (k0_pay6 x)) (k0_pay54 (k0_pay6 x)) (k0_pay58 (k0_pay6 x)) xs
    = shapeCast S15x1000 (addf xs (cntBlk x)) shapeCasts_S15x1000_S15x1000 := rfl

/-- The table a step stores into the summed confidences: what they held plus the fifteen stacked column sums of
  mask times entry. -/
private theorem pay64_eq (x : Vec F S1000x1000 .f32) (xs : Vec F S15x1000 .f32) :
    k0_pay64 x (k0_pay6 x) (k0_pay9 x) (k0_pay14 (k0_pay13 x)) (k0_pay18 x (k0_pay6 x)) (k0_pay22 x (k0_pay6 x))
      (k0_pay26 x (k0_pay6 x)) (k0_pay30 x (k0_pay28 (k0_pay6 x))) (k0_pay34 x (k0_pay6 x))
      (k0_pay38 x (k0_pay6 x)) (k0_pay42 x (k0_pay6 x)) (k0_pay47 x (k0_pay6 x) k0_pay44)
      (k0_pay51 x (k0_pay6 x)) (k0_pay55 x (k0_pay6 x)) (k0_pay59 x (k0_pay6 x)) xs
    = shapeCast S15x1000 (addf xs (confBlk x)) shapeCasts_S15x1000_S15x1000 := rfl

/-- The table a step stores into the correct predictions: what they held plus the fifteen stacked column sums of
  mask times the indicator that the row's label is the column. -/
private theorem pay65_eq (x : Vec F S1000x1000 .f32) (l : Vec F S1000x1 .i32) (xs : Vec F S15x1000 .f32) :
    k0_pay1 xs
      (k0_pay65 (k0_pay5 l) (k0_pay6 x) (k0_pay10 x l) (k0_pay15 (k0_pay5 l) (k0_pay11 x))
        (k0_pay19 (k0_pay5 l) (k0_pay6 x)) (k0_pay23 (k0_pay5 l) (k0_pay6 x)) (k0_pay27 (k0_pay5 l) (k0_pay6 x))
        (k0_pay31 (k0_pay5 l) (k0_pay28 (k0_pay6 x))) (k0_pay35 (k0_pay5 l) (k0_pay6 x))
        (k0_pay39 (k0_pay5 l) (k0_pay6 x)) (k0_pay43 (k0_pay5 l) (k0_pay6 x))
        (k0_pay48 (k0_pay5 l) (k0_pay6 x) k0_pay44) (k0_pay52 (k0_pay5 l) (k0_pay6 x))
        (k0_pay56 (k0_pay5 l) (k0_pay6 x)) (k0_pay60 (k0_pay5 l) (k0_pay6 x)))
    = shapeCast S15x1000 (addf xs (corrBlk x l)) shapeCasts_S15x1000_S15x1000 := rfl

theorem sout_A_0 (c : Dev nD) (i : grid0.Coords) (a1 : Memref sig .tc .vmem S1000x1000 .f32) (h1 : a1.IsWhole) (a2 : Memref sig .tc .vmem S1000x1 .i32) (h2 : a2.IsWhole) (a3 : Memref sig .tc .vmem S15x1000 .f32) (h3 : a3.IsWhole) (a4 : Memref sig .tc .vmem S15x1000 .f32) (h4 : a4.IsWhole) (a5 : Memref sig .tc .vmem S15x1000 .f32) (h5 : a5.IsWhole) (a6 : Memref sig .tc .vmem S15x1000 .f32) (h6 : a6.IsWhole) (a7 : Memref sig .tc .vmem S15x1000 .f32) (h7 : a7.IsWhole) (a8 : Memref sig .tc .vmem S15x1000 .f32) (h8 : a8.IsWhole) (hc0 : cond0_0 i) (hc1 : ¬cond0_1 i)
    (x0 : Vec F S1000x1000 .f32) (x1 : Vec F S1000x1 .i32) :
    sout0_A_0 c i a1 h1 a2 h2 a3 h3 a4 h4 a5 h5 a6 h6 a7 h7 a8 h8 hc0 hc1 x0 x1 = addf zero15 (cntBlk x0) := by
  unfold sout0_A_0
  rw [View.read_writes_eq_canon _ _ _ (scover0_A_0 c i a1 h1 a2 h2 a3 h3 a4 h4 a5 h5 a6 h6 a7 h7 a8 h8 hc0 hc1 x0 x1)]
  unfold kernelRun0_A
  dsimp only
  sl_unfold_words
  rw [View.canon_cons_unit_zero (S := S15x1000) hz, View.readCov_unit_zero (S := S15x1000) _ hz]
  simp only [View.readAt_eq_ld, h1.read_unread, View.ld_unit_zero (S := S1000x1000) hz, View.readCov_unit_zero (S := S15x1000) _ hz]
  rw [pay63_eq, shapeCast_self, pay2_eq]

theorem sout_A_1 (c : Dev nD) (i : grid0.Coords) (a1 : Memref sig .tc .vmem S1000x1000 .f32) (h1 : a1.IsWhole) (a2 : Memref sig .tc .vmem S1000x1 .i32) (h2 : a2.IsWhole) (a3 : Memref sig .tc .vmem S15x1000 .f32) (h3 : a3.IsWhole) (a4 : Memref sig .tc .vmem S15x1000 .f32) (h4 : a4.IsWhole) (a5 : Memref sig .tc .vmem S15x1000 .f32) (h5 : a5.IsWhole) (a6 : Memref sig .tc .vmem S15x1000 .f32) (h6 : a6.IsWhole) (a7 : Memref sig .tc .vmem S15x1000 .f32) (h7 : a7.IsWhole) (a8 : Memref sig .tc .vmem S15x1000 .f32) (h8 : a8.IsWhole) (hc0 : cond0_0 i) (hc1 : ¬cond0_1 i)
    (x0 : Vec F S1000x1000 .f32) (x1 : Vec F S1000x1 .i32) :
    sout0_A_1 c i a1 h1 a2 h2 a3 h3 a4 h4 a5 h5 a6 h6 a7 h7 a8 h8 hc0 hc1 x0 x1 = addf zero15 (confBlk x0) := by
  unfold sout0_A_1
  rw [View.read_writes_eq_canon _ _ _ (scover0_A_1 c i a1 h1 a2 h2 a3 h3 a4 h4 a5 h5 a6 h6 a7 h7 a8 h8 hc0 hc1 x0 x1)]
  unfold kernelRun0_A
  dsimp only
  sl_unfold_words
  rw [View.canon_cons_unit_zero (S := S15x1000) hz, View.readCov_unit_zero (S := S15x1000) _ hz]
  simp only [View.readAt_eq_ld, h1.read_unread, View.ld_unit_zero (S := S1000x1000) hz, View.readCov_unit_zero (S := S15x1000) _ hz]
  rw [pay64_eq, shapeCast_self, pay3_eq]

theorem sout_A_2 (c : Dev nD) (i : grid0.Coords) (a1 : Memref sig .tc .vmem S1000x1000 .f32) (h1 : a1.IsWhole) (a2 : Memref sig .tc .vmem S1000x1 .i32) (h2 : a2.IsWhole) (a3 : Memref sig .tc .vmem S15x1000 .f32) (h3 : a3.IsWhole) (a4 : Memref sig .tc .vmem S15x1000 .f32) (h4 : a4.IsWhole) (a5 : Memref sig .tc .vmem S15x1000 .f32) (h5 : a5.IsWhole) (a6 : Memref sig .tc .vmem S15x1000 .f32) (h6 : a6.IsWhole) (a7 : Memref sig .tc .vmem S15x1000 .f32) (h7 : a7.IsWhole) (a8 : Memref sig .tc .vmem S15x1000 .f32) (h8 : a8.IsWhole) (hc0 : cond0_0 i) (hc1 : ¬cond0_1 i)
    (x0 : Vec F S1000x1000 .f32) (x1 : Vec F S1000x1 .i32) :
    sout0_A_2 c i a1 h1 a2 h2 a3 h3 a4 h4 a5 h5 a6 h6 a7 h7 a8 h8 hc0 hc1 x0 x1 = addf zero15 (corrBlk x0 x1) := by
  unfold sout0_A_2
  rw [View.read_writes_eq_canon _ _ _ (scover0_A_2 c i a1 h1 a2 h2 a3 h3 a4 h4 a5 h5 a6 h6 a7 h7 a8 h8 hc0 hc1 x0 x1)]
  unfold kernelRun0_A
  dsimp only
  sl_unfold_words
  rw [View.canon_cons_unit_zero (S := S15x1000) hz, View.readCov_unit_zero (S := S15x1000) _ hz]
  simp only [View.readAt_eq_ld, h1.read_unread, h2.read_unread, View.ld_unit_zero (S := S1000x1000) hz, View.ld_unit_zero (S := S1000x1) hz, View.readCov_unit_zero (S := S15x1000) _ hz]
  rw [pay65_eq, shapeCast_self, pay4_eq]

theorem sout_B_0 (c : Dev nD) (i : grid0.Coords) (a1 : Memref sig .tc .vmem S1000x1000 .f32) (h1 : a1.IsWhole) (a2 : Memref sig .tc .vmem S1000x1 .i32) (h2 : a2.IsWhole) (a3 : Memref sig .tc .vmem S15x1000 .f32) (h3 : a3.IsWhole) (a4 : Memref sig .tc .vmem S15x1000 .f32) (h4 : a4.IsWhole) (a5 : Memref sig .tc .vmem S15x1000 .f32) (h5 : a5.IsWhole) (a6 : Memref sig .tc .vmem S15x1000 .f32) (h6 : a6.IsWhole) (a7 : Memref sig .tc .vmem S15x1000 .f32) (h7 : a7.IsWhole) (a8 : Memref sig .tc .vmem S15x1000 .f32) (h8 : a8.IsWhole) (hc0 : ¬cond0_0 i) (hc1 : ¬cond0_1 i)
    (x0 : Vec F S1000x1000 .f32) (x1 : Vec F S1000x1 .i32) (xs0 xs1 xs2 : Vec F S15x1000 .f32) :
    sout0_B_0 c i a1 h1 a2 h2 a3 h3 a4 h4 a5 h5 a6 h6 a7 h7 a8 h8 hc0 hc1 x0 x1 xs0 xs1 xs2 = addf xs0 (cntBlk x0) := by
  unfold sout0_B_0
  rw [View.read_writes_eq_canon _ _ _ (scover0_B_0 c i a1 h1 a2 h2 a3 h3 a4 h4 a5 h5 a6 h6 a7 h7 a8 h8 hc0 hc1 x0 x1 xs0 xs1 xs2)]
  unfold kernelRun0_B
  dsimp only
  sl_unfold_words
  rw [View.canon_unit_zero hz]
  simp only [View.readAt_eq_ld, h1.read_unread, View.ld_unit_zero (S := S1000x1000) hz, h6.read_unread, View.ld_unit_zero (S := S15x1000) hz]
  rw [pay63_eq, shapeCast_self]

theorem sout_B_1 (c : Dev nD) (i : grid0.Coords) (a1 : Memref sig .tc .vmem S1000x1000 .f32) (h1 : a1.IsWhole) (a2 : Memref sig .tc .vmem S1000x1 .i32) (h2 : a2.IsWhole) (a3 : Memref sig .tc .vmem S15x1000 .f32) (h3 : a3.IsWhole) (a4 : Memref sig .tc .vmem S15x1000 .f32) (h4 : a4.IsWhole) (a5 : Memref sig .tc .vmem S15x1000 .f32) (h5 : a5.IsWhole) (a6 : Memref sig .tc .vmem S15x1000 .f32) (h6 : a6.IsWhole) (a7 : Memref sig .tc .vmem S15x1000 .f32) (h7 : a7.IsWhole) (a8 : Memref sig .tc .vmem S15x1000 .f32) (h8 : a8.IsWhole) (hc0 : ¬cond0_0 i) (hc1 : ¬cond0_1 i)
    (x0 : Vec F S1000x1000 .f32) (x1 : Vec F S1000x1 .i32) (xs0 xs1 xs2 : Vec F S15x1000 .f32) :
    sout0_B_1 c i a1 h1 a2 h2 a3 h3 a4 h4 a5 h5 a6 h6 a7 h7 a8 h8 hc0 hc1 x0 x1 xs0 xs1 xs2 = addf xs1 (confBlk x0) := by
  unfold sout0_B_1
  rw [View.read_writes_eq_canon _ _ _ (scover0_B_1 c i a1 h1 a2 h2 a3 h3 a4 h4 a5 h5 a6 h6 a7 h7 a8 h8 hc0 hc1 x0 x1 xs0 xs1 xs2)]
  unfold kernelRun0_B
  dsimp only
  sl_unfold_words
  rw [View.canon_unit_zero hz]
  simp only [View.readAt_eq_ld, h1.read_unread, View.ld_unit_zero (S := S1000x1000) hz, h7.read_unread, View.ld_unit_zero (S := S15x1000) hz]
  rw [pay64_eq, shapeCast_self]

theorem sout_B_2 (c : Dev nD) (i : grid0.Coords) (a1 : Memref sig .tc .vmem S1000x1000 .f32) (h1 : a1.IsWhole) (a2 : Memref sig .tc .vmem S1000x1 .i32) (h2 : a2.IsWhole) (a3 : Memref sig .tc .vmem S15x1000 .f32) (h3 : a3.IsWhole) (a4 : Memref sig .tc .vmem S15x1000 .f32) (h4 : a4.IsWhole) (a5 : Memref sig .tc .vmem S15x1000 .f32) (h5 : a5.IsWhole) (a6 : Memref sig .tc .vmem S15x1000 .f32) (h6 : a6.IsWhole) (a7 : Memref sig .tc .vmem S15x1000 .f32) (h7 : a7.IsWhole) (a8 : Memref sig .tc .vmem S15x1000 .f32) (h8 : a8.IsWhole) (hc0 : ¬cond0_0 i) (hc1 : ¬cond0_1 i)
    (x0 : Vec F S1000x1000 .f32) (x1 : Vec F S1000x1 .i32) (xs0 xs1 xs2 : Vec F S15x1000 .f32) :
    sout0_B_2 c i a1 h1 a2 h2 a3 h3 a4 h4 a5 h5 a6 h6 a7 h7 a8 h8 hc0 hc1 x0 x1 xs0 xs1 xs2 = addf xs2 (corrBlk x0 x1) := by
  unfold sout0_B_2
  rw [View.read_writes_eq_canon _ _ _ (scover0_B_2 c i a1 h1 a2 h2 a3 h3 a4 h4 a5 h5 a6 h6 a7 h7 a8 h8 hc0 hc1 x0 x1 xs0 xs1 xs2)]
  unfold kernelRun0_B
  dsimp only
  sl_unfold_words
  rw [View.canon_unit_zero hz]
  simp only [View.readAt_eq_ld, h1.read_unread, h2.read_unread, View.ld_unit_zero (S := S1000x1000) hz, View.ld_unit_zero (S := S1000x1) hz, h8.read_unread, View.ld_unit_zero (S := S15x1000) hz]
  rw [pay65_eq, shapeCast_self]

theorem sout_C_0 (c : Dev nD) (i : grid0.Coords) (a1 : Memref sig .tc .vmem S1000x1000 .f32) (h1 : a1.IsWhole) (a2 : Memref sig .tc .vmem S1000x1 .i32) (h2 : a2.IsWhole) (a3 : Memref sig .tc .vmem S15x1000 .f32) (h3 : a3.IsWhole) (a4 : Memref sig .tc .vmem S15x1000 .f32) (h4 : a4.IsWhole) (a5 : Memref sig .tc .vmem S15x1000 .f32) (h5 : a5.IsWhole) (a6 : Memref sig .tc .vmem S15x1000 .f32) (h6 : a6.IsWhole) (a7 : Memref sig .tc .vmem S15x1000 .f32) (h7 : a7.IsWhole) (a8 : Memref sig .tc .vmem S15x1000 .f32) (h8 : a8.IsWhole) (hc0 : ¬cond0_0 i) (hc1 : cond0_1 i)
    (x0 : Vec F S1000x1000 .f32) (x1 : Vec F S1000x1 .i32) (xs0 xs1 xs2 : Vec F S15x1000 .f32) :
    sout0_C_0 c i a1 h1 a2 h2 a3 h3 a4 h4 a5 h5 a6 h6 a7 h7 a8 h8 hc0 hc1 x0 x1 xs0 xs1 xs2 = addf xs0 (cntBlk x0) := by
  unfold sout0_C_0
  rw [View.read_writes_eq_canon _ _ _ (scover0_C_0 c i a1 h1 a2 h2 a3 h3 a4 h4 a5 h5 a6 h6 a7 h7 a8 h8 hc0 hc1 x0 x1 xs0 xs1 xs2)]
  unfold kernelRun0_C
  dsimp only
  sl_unfold_words
  rw [View.canon_unit_zero hz]
  simp only [View.readAt_eq_ld, h1.read_unread, View.ld_unit_zero (S := S1000x1000) hz, h6.read_unread, View.ld_unit_zero (S := S15x1000) hz]
  rw [pay63_eq, shapeCast_self]

theorem sout_C_1 (c : Dev nD) (i : grid0.Coords) (a1 : Memref sig .tc .vmem S1000x1000 .f32) (h1 : a1.IsWhole) (a2 : Memref sig .tc .vmem S1000x1 .i32) (h2 : a2.IsWhole) (a3 : Memref sig .tc .vmem S15x1000 .f32) (h3 : a3.IsWhole) (a4 : Memref sig .tc .vmem S15x1000 .f32) (h4 : a4.IsWhole) (a5 : Memref sig .tc .vmem S15x1000 .f32) (h5 : a5.IsWhole) (a6 : Memref sig .tc .vmem S15x1000 .f32) (h6 : a6.IsWhole) (a7 : Memref sig .tc .vmem S15x1000 .f32) (h7 : a7.IsWhole) (a8 : Memref sig .tc .vmem S15x1000 .f32) (h8 : a8.IsWhole) (hc0 : ¬cond0_0 i) (hc1 : cond0_1 i)
    (x0 : Vec F S1000x1000 .f32) (x1 : Vec F S1000x1 .i32) (xs0 xs1 xs2 : Vec F S15x1000 .f32) :
    sout0_C_1 c i a1 h1 a2 h2 a3 h3 a4 h4 a5 h5 a6 h6 a7 h7 a8 h8 hc0 hc1 x0 x1 xs0 xs1 xs2 = addf xs1 (confBlk x0) := by
  unfold sout0_C_1
  rw [View.read_writes_eq_canon _ _ _ (scover0_C_1 c i a1 h1 a2 h2 a3 h3 a4 h4 a5 h5 a6 h6 a7 h7 a8 h8 hc0 hc1 x0 x1 xs0 xs1 xs2)]
  unfold kernelRun0_C
  dsimp only
  sl_unfold_words
  rw [View.canon_unit_zero hz]
  simp only [View.readAt_eq_ld, h1.read_unread, View.ld_unit_zero (S := S1000x1000) hz, h7.read_unread, View.ld_unit_zero (S := S15x1000) hz]
  rw [pay64_eq, shapeCast_self]

theorem sout_C_2 (c : Dev nD) (i : grid0.Coords) (a1 : Memref sig .tc .vmem S1000x1000 .f32) (h1 : a1.IsWhole) (a2 : Memref sig .tc .vmem S1000x1 .i32) (h2 : a2.IsWhole) (a3 : Memref sig .tc .vmem S15x1000 .f32) (h3 : a3.IsWhole) (a4 : Memref sig .tc .vmem S15x1000 .f32) (h4 : a4.IsWhole) (a5 : Memref sig .tc .vmem S15x1000 .f32) (h5 : a5.IsWhole) (a6 : Memref sig .tc .vmem S15x1000 .f32) (h6 : a6.IsWhole) (a7 : Memref sig .tc .vmem S15x1000 .f32) (h7 : a7.IsWhole) (a8 : Memref sig .tc .vmem S15x1000 .f32) (h8 : a8.IsWhole) (hc0 : ¬cond0_0 i) (hc1 : cond0_1 i)
    (x0 : Vec F S1000x1000 .f32) (x1 : Vec F S1000x1 .i32) (xs0 xs1 xs2 : Vec F S15x1000 .f32) :
    sout0_C_2 c i a1 h1 a2 h2 a3 h3 a4 h4 a5 h5 a6 h6 a7 h7 a8 h8 hc0 hc1 x0 x1 xs0 xs1 xs2 = addf xs2 (corrBlk x0 x1) := by
  unfold sout0_C_2
  rw [View.read_writes_eq_canon _ _ _ (scover0_C_2 c i a1 h1 a2 h2 a3 h3 a4 h4 a5 h5 a6 h6 a7 h7 a8 h8 hc0 hc1 x0 x1 xs0 xs1 xs2)]
  unfold kernelRun0_C
  dsimp only
  sl_unfold_words
  rw [View.canon_unit_zero hz]
  simp only [View.readAt_eq_ld, h1.read_unread, h2.read_unread, View.ld_unit_zero (S := S1000x1000) hz, View.ld_unit_zero (S := S1000x1) hz, h8.read_unread, View.ld_unit_zero (S := S15x1000) hz]
  rw [pay65_eq, shapeCast_self]

theorem out_C_2 (c : Dev nD) (i : grid0.Coords) (a1 : Memref sig .tc .vmem S1000x1000 .f32) (h1 : a1.IsWhole) (a2 : Memref sig .tc .vmem S1000x1 .i32) (h2 : a2.IsWhole) (a3 : Memref sig .tc .vmem S15x1000 .f32) (h3 : a3.IsWhole) (a4 : Memref sig .tc .vmem S15x1000 .f32) (h4 : a4.IsWhole) (a5 : Memref sig .tc .vmem S15x1000 .f32) (h5 : a5.IsWhole) (a6 : Memref sig .tc .vmem S15x1000 .f32) (h6 : a6.IsWhole) (a7 : Memref sig .tc .vmem S15x1000 .f32) (h7 : a7.IsWhole) (a8 : Memref sig .tc .vmem S15x1000 .f32) (h8 : a8.IsWhole) (hc0 : ¬cond0_0 i) (hc1 : cond0_1 i)
    (x0 : Vec F S1000x1000 .f32) (x1 : Vec F S1000x1 .i32) (xs0 xs1 xs2 : Vec F S15x1000 .f32) :
    out0_C_2 c i a1 h1 a2 h2 a3 h3 a4 h4 a5 h5 a6 h6 a7 h7 a8 h8 hc0 hc1 x0 x1 xs0 xs1 xs2 = addf xs0 (cntBlk x0) := by
  unfold out0_C_2
  rw [View.read_writes_eq_canon _ _ _ (cover0_C_2 c i a1 h1 a2 h2 a3 h3 a4 h4 a5 h5 a6 h6 a7 h7 a8 h8 hc0 hc1 x0 x1 xs0 xs1 xs2)]
  unfold kernelRun0_C
  dsimp only
  sl_unfold_words
  rw [View.canon_unit_zero hz]
  simp only [View.readAt_eq_ld, h1.read_unread, View.ld_unit_zero (S := S1000x1000) hz, h6.read_unread, View.ld_unit_zero (S := S15x1000) hz, View.readCov_unit_zero (S := S15x1000) _ hz]
  rw [pay63_eq, shapeCast_self]

theorem out_C_3 (c : Dev nD) (i : grid0.Coords) (a1 : Memref sig .tc .vmem S1000x1000 .f32) (h1 : a1.IsWhole) (a2 : Memref sig .tc .vmem S1000x1 .i32) (h2 : a2.IsWhole) (a3 : Memref sig .tc .vmem S15x1000 .f32) (h3 : a3.IsWhole) (a4 : Memref sig .tc .vmem S15x1000 .f32) (h4 : a4.IsWhole) (a5 : Memref sig .tc .vmem S15x1000 .f32) (h5 : a5.IsWhole) (a6 : Memref sig .tc .vmem S15x1000 .f32) (h6 : a6.IsWhole) (a7 : Memref sig .tc .vmem S15x1000 .f32) (h7 : a7.IsWhole) (a8 : Memref sig .tc .vmem S15x1000 .f32) (h8 : a8.IsWhole) (hc0 : ¬cond0_0 i) (hc1 : cond0_1 i)
    (x0 : Vec F S1000x1000 .f32) (x1 : Vec F S1000x1 .i32) (xs0 xs1 xs2 : Vec F S15x1000 .f32) :
    out0_C_3 c i a1 h1 a2 h2 a3 h3 a4 h4 a5 h5 a6 h6 a7 h7 a8 h8 hc0 hc1 x0 x1 xs0 xs1 xs2 = addf xs1 (confBlk x0) := by
  unfold out0_C_3
  rw [View.read_writes_eq_canon _ _ _ (cover0_C_3 c i a1 h1 a2 h2 a3 h3 a4 h4 a5 h5 a6 h6 a7 h7 a8 h8 hc0 hc1 x0 x1 xs0 xs1 xs2)]
  unfold kernelRun0_C
  dsimp only
  sl_unfold_words
  rw [View.canon_unit_zero hz]
  simp only [View.readAt_eq_ld, h1.read_unread, View.ld_unit_zero (S := S1000x1000) hz, h7.read_unread, View.ld_unit_zero (S := S15x1000) hz, View.readCov_unit_zero (S := S15x1000) _ hz]
  rw [pay64_eq, shapeCast_self]

theorem out_C_4 (c : Dev nD) (i : grid0.Coords) (a1 : Memref sig .tc .vmem S1000x1000 .f32) (h1 : a1.IsWhole) (a2 : Memref sig .tc .vmem S1000x1 .i32) (h2 : a2.IsWhole) (a3 : Memref sig .tc .vmem S15x1000 .f32) (h3 : a3.IsWhole) (a4 : Memref sig .tc .vmem S15x1000 .f32) (h4 : a4.IsWhole) (a5 : Memref sig .tc .vmem S15x1000 .f32) (h5 : a5.IsWhole) (a6 : Memref sig .tc .vmem S15x1000 .f32) (h6 : a6.IsWhole) (a7 : Memref sig .tc .vmem S15x1000 .f32) (h7 : a7.IsWhole) (a8 : Memref sig .tc .vmem S15x1000 .f32) (h8 : a8.IsWhole) (hc0 : ¬cond0_0 i) (hc1 : cond0_1 i)
    (x0 : Vec F S1000x1000 .f32) (x1 : Vec F S1000x1 .i32) (xs0 xs1 xs2 : Vec F S15x1000 .f32) :
    out0_C_4 c i a1 h1 a2 h2 a3 h3 a4 h4 a5 h5 a6 h6 a7 h7 a8 h8 hc0 hc1 x0 x1 xs0 xs1 xs2 = addf xs2 (corrBlk x0 x1) := by
  unfold out0_C_4
  rw [View.read_writes_eq_canon _ _ _ (cover0_C_4 c i a1 h1 a2 h2 a3 h3 a4 h4 a5 h5 a6 h6 a7 h7 a8 h8 hc0 hc1 x0 x1 xs0 xs1 xs2)]
  unfold kernelRun0_C
  dsimp only
  sl_unfold_words
  rw [View.canon_unit_zero hz]
  simp only [View.readAt_eq_ld, h1.read_unread, h2.read_unread, View.ld_unit_zero (S := S1000x1000) hz, View.ld_unit_zero (S := S1000x1) hz, h8.read_unread, View.ld_unit_zero (S := S15x1000) hz, View.readCov_unit_zero (S := S15x1000) _ hz]
  rw [pay65_eq, shapeCast_self]

end Cert.KernelIdeal.Pieces

end
-- ==== Proof.KAccum.lean ====
/-
  The accumulators after each grid step, as a running sum.

  Step 0 leaves zero plus its contribution, step n + 1 what step n left plus its own. What the generated frame says
  the three carried buffers hold after step n is this running sum, by induction on n; and after the last step (49)
  the three outputs hold it too.
-/
import proofs.«109215_j47012712022077_1_alg».proof.Proof.Gen.KernelIdeal.Frame
import proofs.«109215_j47012712022077_1_alg».proof.Proof.KBlocks
import proofs.«109215_j47012712022077_1_alg».proof.Proof.KPieces

noncomputable section

open Idealize.ShloMosaic Idealize.ShloMosaic.TcCoe Idealize.SL.Sem

namespace Cert.KernelIdeal.Accum

open Cert.KernelIdeal Cert.KernelIdeal.Gen Cert.KernelIdeal.Blocks

variable {F : FTy → Type} [FloatOps F]
variable (m : (ℓ : Loc nD τ sig) → Buf (Elt F) ℓ)

/-- Step `t`'s block of confidences and of labels, at their literal types. -/
abbrev xblk (c : Dev nD) (t : Fin cfg0.N) : Vec F S1000x1000 .f32 := iblk m c 0 t
abbrev lblk (c : Dev nD) (t : Fin cfg0.N) : Vec F S1000x1 .i32 := iblk m c 1 t

/-- The running sums after step `n`. -/
def accCnt (c : Dev nD) : (n : ℕ) → n < cfg0.N → Vec F S15x1000 .f32
  | 0, h => addf zero15 (cntBlk (xblk m c ⟨0, h⟩))
  | n + 1, h => addf (accCnt c n (Nat.lt_of_succ_lt h)) (cntBlk (xblk m c ⟨n + 1, h⟩))
def accConf (c : Dev nD) : (n : ℕ) → n < cfg0.N → Vec F S15x1000 .f32
  | 0, h => addf zero15 (confBlk (xblk m c ⟨0, h⟩))
  | n + 1, h => addf (accConf c n (Nat.lt_of_succ_lt h)) (confBlk (xblk m c ⟨n + 1, h⟩))
def accCorr (c : Dev nD) : (n : ℕ) → n < cfg0.N → Vec F S15x1000 .f32
  | 0, h => addf zero15 (corrBlk (xblk m c ⟨0, h⟩) (lblk m c ⟨0, h⟩))
  | n + 1, h => addf (accCorr c n (Nat.lt_of_succ_lt h)) (corrBlk (xblk m c ⟨n + 1, h⟩) (lblk m c ⟨n + 1, h⟩))

/-- The running sums, one step at a time. -/
theorem accCnt_zero (c : Dev nD) (h : 0 < cfg0.N) :
    accCnt m c 0 h = addf zero15 (cntBlk (xblk m c ⟨0, h⟩)) := rfl
theorem accCnt_succ (c : Dev nD) (n : ℕ) (h : n + 1 < cfg0.N) :
    accCnt m c (n + 1) h = addf (accCnt m c n (Nat.lt_of_succ_lt h)) (cntBlk (xblk m c ⟨n + 1, h⟩)) := rfl
theorem accConf_zero (c : Dev nD) (h : 0 < cfg0.N) :
    accConf m c 0 h = addf zero15 (confBlk (xblk m c ⟨0, h⟩)) := rfl
theorem accConf_succ (c : Dev nD) (n : ℕ) (h : n + 1 < cfg0.N) :
    accConf m c (n + 1) h = addf (accConf m c n (Nat.lt_of_succ_lt h)) (confBlk (xblk m c ⟨n + 1, h⟩)) := rfl
theorem accCorr_zero (c : Dev nD) (h : 0 < cfg0.N) :
    accCorr m c 0 h = addf zero15 (corrBlk (xblk m c ⟨0, h⟩) (lblk m c ⟨0, h⟩)) := rfl
theorem accCorr_succ (c : Dev nD) (n : ℕ) (h : n + 1 < cfg0.N) :
    accCorr m c (n + 1) h
      = addf (accCorr m c n (Nat.lt_of_succ_lt h)) (corrBlk (xblk m c ⟨n + 1, h⟩) (lblk m c ⟨n + 1, h⟩)) := rfl

open Cert.KernelIdeal.Pieces

/-- A first step leaves zero plus its contribution in each carried buffer. -/
theorem step_A (c : Dev nD) (t : Fin cfg0.N) (h0 : t.val % 50 = 0) (h1 : ¬t.val % 50 = 49) :
    (outsAt0 m c t.val t.isLt).2.2.2
      = (addf zero15 (cntBlk (xblk m c t)), addf zero15 (confBlk (xblk m c t)),
          addf zero15 (corrBlk (xblk m c t) (lblk m c t))) := by
  rw [outsAt0_A m c t h0 h1]
  dsimp only
  rw [Prod.mk.injEq, Prod.mk.injEq]
  exact ⟨sout_A_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    sout_A_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    sout_A_2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)⟩

/-- A middle step leaves, in each carried buffer, what the step before left plus its contribution. -/
theorem step_B (c : Dev nD) (t : Fin cfg0.N) (h0 : ¬t.val % 50 = 0) (h1 : ¬t.val % 50 = 49) :
    (outsAt0 m c t.val t.isLt).2.2.2
      = (addf (outsAt0 m c (t.val - 1) (Nat.lt_of_le_of_lt (Nat.sub_le _ _) t.isLt)).2.2.2.1 (cntBlk (xblk m c t)),
          addf (outsAt0 m c (t.val - 1) (Nat.lt_of_le_of_lt (Nat.sub_le _ _) t.isLt)).2.2.2.2.1 (confBlk (xblk m c t)),
          addf (outsAt0 m c (t.val - 1) (Nat.lt_of_le_of_lt (Nat.sub_le _ _) t.isLt)).2.2.2.2.2 (corrBlk (xblk m c t) (lblk m c t))) := by
  rw [outsAt0_B m c t h0 h1]
  dsimp only
  rw [Prod.mk.injEq, Prod.mk.injEq]
  exact ⟨sout_B_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    sout_B_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    sout_B_2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩

/-- The last step does the same to the carried buffers, -/
theorem step_C (c : Dev nD) (t : Fin cfg0.N) (h0 : ¬t.val % 50 = 0) (h1 : t.val % 50 = 49) :
    (outsAt0 m c t.val t.isLt).2.2.2
      = (addf (outsAt0 m c (t.val - 1) (Nat.lt_of_le_of_lt (Nat.sub_le _ _) t.isLt)).2.2.2.1 (cntBlk (xblk m c t)),
          addf (outsAt0 m c (t.val - 1) (Nat.lt_of_le_of_lt (Nat.sub_le _ _) t.isLt)).2.2.2.2.1 (confBlk (xblk m c t)),
          addf (outsAt0 m c (t.val - 1) (Nat.lt_of_le_of_lt (Nat.sub_le _ _) t.isLt)).2.2.2.2.2 (corrBlk (xblk m c t) (lblk m c t))) := by
  rw [outsAt0_C m c t h0 h1]
  dsimp only
  rw [Prod.mk.injEq, Prod.mk.injEq]
  exact ⟨sout_C_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    sout_C_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    sout_C_2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩

/-- and copies the same three sums into the three outputs. -/
theorem step_C_out (c : Dev nD) (t : Fin cfg0.N) (h0 : ¬t.val % 50 = 0) (h1 : t.val % 50 = 49) :
    (outsAt0 m c t.val t.isLt).1 = addf (outsAt0 m c (t.val - 1) (Nat.lt_of_le_of_lt (Nat.sub_le _ _) t.isLt)).2.2.2.1 (cntBlk (xblk m c t))
      ∧ (outsAt0 m c t.val t.isLt).2.1 = addf (outsAt0 m c (t.val - 1) (Nat.lt_of_le_of_lt (Nat.sub_le _ _) t.isLt)).2.2.2.2.1 (confBlk (xblk m c t))
      ∧ (outsAt0 m c t.val t.isLt).2.2.1 = addf (outsAt0 m c (t.val - 1) (Nat.lt_of_le_of_lt (Nat.sub_le _ _) t.isLt)).2.2.2.2.2 (corrBlk (xblk m c t) (lblk m c t)) := by
  rw [outsAt0_C m c t h0 h1]
  dsimp only
  exact ⟨out_C_2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    out_C_3 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    out_C_4 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩

/-- After step `n` the three carried buffers hold the running sums. -/
theorem scratch_eq (c : Dev nD) : ∀ (n : ℕ) (h : n < cfg0.N),
    (outsAt0 m c n h).2.2.2 = (accCnt m c n h, accConf m c n h, accCorr m c n h)
  | 0, h => step_A m c ⟨0, h⟩ rfl (by show ¬(0 : ℕ) % 50 = 49; decide)
  | n + 1, h => by
    have hN : cfg0.N = 50 := N_0
    have ih := scratch_eq c n (Nat.lt_of_succ_lt h)
    have h0 : ¬(n + 1) % 50 = 0 := by omega
    rw [accCnt_succ, accConf_succ, accCorr_succ]
    by_cases h1 : (n + 1) % 50 = 49
    · refine (step_C m c ⟨n + 1, h⟩ h0 h1).trans ?_
      show (addf (outsAt0 m c n _).2.2.2.1 _, addf (outsAt0 m c n _).2.2.2.2.1 _, addf (outsAt0 m c n _).2.2.2.2.2 _) = _
      rw [ih]
    · refine (step_B m c ⟨n + 1, h⟩ h0 h1).trans ?_
      show (addf (outsAt0 m c n _).2.2.2.1 _, addf (outsAt0 m c n _).2.2.2.2.1 _, addf (outsAt0 m c n _).2.2.2.2.2 _) = _
      rw [ih]

/-- At a last step of the grid the three outputs hold the running sums, -/
theorem outs_C (c : Dev nD) : ∀ (n : ℕ) (h : n < cfg0.N), ¬n % 50 = 0 → n % 50 = 49 →
    (outsAt0 m c n h).1 = accCnt m c n h ∧ (outsAt0 m c n h).2.1 = accConf m c n h
      ∧ (outsAt0 m c n h).2.2.1 = accCorr m c n h
  | 0, h, h0, _ => absurd (Nat.zero_mod _) h0
  | n + 1, h, h0, h1 => by
    have ih := scratch_eq m c n (Nat.lt_of_succ_lt h)
    rw [accCnt_succ, accConf_succ, accCorr_succ]
    have hC := step_C_out m c ⟨n + 1, h⟩ h0 h1
    refine ⟨hC.1.trans ?_, hC.2.1.trans ?_, hC.2.2.trans ?_⟩
    · show addf (outsAt0 m c n _).2.2.2.1 _ = _
      rw [ih]
    · show addf (outsAt0 m c n _).2.2.2.2.1 _ = _
      rw [ih]
    · show addf (outsAt0 m c n _).2.2.2.2.2 _ = _
      rw [ih]

/-- After the last step the three outputs hold them too. -/
theorem outs_last (c : Dev nD) (h : 49 < cfg0.N) :
    (outsAt0 m c 49 h).1 = accCnt m c 49 h ∧ (outsAt0 m c 49 h).2.1 = accConf m c 49 h
      ∧ (outsAt0 m c 49 h).2.2.1 = accCorr m c 49 h :=
  outs_C m c 49 h (by decide) (by decide)

end Cert.KernelIdeal.Accum

end
-- ==== Proof.KBlockAt.lean ====
/-
  A step's contribution read at one cell, over the extended reals.

  Cell (b, c) of a contribution is a sum over the block's 1000 rows r: of the indicator that entry (r, c) falls in
  bin b (counts); of that indicator times the entry (confidences); of that indicator times the indicator that row r's
  label is c (correct predictions).
-/
import proofs.«109215_j47012712022077_1_alg».proof.Proof.KBlocks
import proofs.«109215_j47012712022077_1_alg».proof.Proof.HistSpec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open Idealize.ShloMosaic Idealize.ShloMosaic.ValueIdx

namespace Cert.KernelIdeal.BlockAt

open Cert.KernelIdeal Cert.KernelIdeal.Blocks

/-- The stack of fifteen one-row pieces, read at (b, c), is piece b at (0, c): the pieces all have extent one on the
    stacking axis, so coordinate b on that axis falls in piece b, and the other coordinate is kept. -/
theorem stack_apply (row : Fin 15 → FVec Ideal S1x1000 .f32) (b : Fin 15) (c : Fin 1000) :
    stack (F := Ideal) row (ix2 b c) = row b (ix2 (0 : Fin 1) c) := by
  unfold stack
  refine concatenate_ofFn_unit_apply (t := S15x1000) (s₁ := S1x1000) (0 : Fin 2) (fun n => row n) _ rfl rfl (ix2 b c) b rfl
    (ix2 (0 : Fin 1) c) ?_
  intro a ha
  fin_cases a
  · exact absurd rfl ha
  · rfl

/-- The column sums' one row at column c: the sum over the block's 1000 rows r of the entry (r, c). The cast
    [1000] → [1, 1000] reads the vector at c; the reduction over axis 0 there is the sum over that axis's
    coordinates of the block at the index with the coordinate inserted, which is (r, c). -/
theorem colSum_apply (y : FVec Ideal S1000x1000 .f32) (c : Fin 1000) :
    colSum (F := Ideal) y (ix2 (0 : Fin 1) c) = ∑ r : Fin 1000, y (ix2 r c) := by
  unfold colSum
  rw [shapeCast_a_1a_apply]
  refine (Ideal.multiReduction_add_single (s := S1000x1000) (t := S1000) (a := (0 : Fin 2)) y _
    Gen.reduces_S1000x1000_S1000 _ _ (ix1 c)).trans ?_
  show ∑ r : Fin 1000, _ = _
  refine Finset.sum_congr rfl fun r _ => ?_
  congr 1
  funext a
  fin_cases a <;> rfl

/-- The bin word of a block's entry is the specification's bin of that entry: every layer is elementwise. -/
theorem binOf_apply (x : Vec Ideal S1000x1000 .f32) (i : S1000x1000.Idx) :
    binOf (F := Ideal) x i = Cert.Hist.binw (x i) := rfl

/-- The mask of bin b at an entry is the specification's indicator: a one-bit comparison widened to a word and
    converted signed is the bit converted unsigned. -/
theorem maskOf_apply (b : BitVec 32) (x : Vec Ideal S1000x1000 .f32) (i : S1000x1000.Idx) :
    maskOf (F := Ideal) b x i = Cert.Hist.inBin (x i) b := by
  unfold maskOf
  rw [sitofp_extui_eq_uitofp]
  rfl

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The label indicator at (r, c): the labels' column laid along every column reads row r's label, the column
    numbers' row laid along every row reads c as a word, and the widened comparison converted signed is the bit
    converted unsigned. -/
theorem labelOf_apply (l : Vec Ideal S1000x1 .i32) (r c : Fin 1000) :
    labelOf (F := Ideal) l (ix2 r c) = Cert.Hist.isLabel (l (ix2 r (0 : Fin 1))) (BitVec.ofNat 32 c.val) := by
  show Gen.k0_pay5 (F := Ideal) l (ix2 r c) = _
  unfold Gen.k0_pay5
  simp only []
  rw [sitofp_extui_eq_uitofp, shapeCast_self]
  show FloatOps.uitofp (F := Ideal) .f32 (IntOp.cmpi .eq
      (broadcastTo S1000x1000 l Gen.broadcasts_S1000x1_S1000x1000 (ix2 r c))
      (broadcastTo S1000x1000 (iota .tc S1x1000 32 [1] Gen.iota_S1x1000_d1_w32) Gen.broadcasts_S1x1000_S1000x1000 (ix2 r c))) = _
  rw [broadcastTo_1b_ab_apply, iota_single_apply, broadcastTo_a1_ab_apply]
  rfl

theorem cntBlk_apply (x : Vec Ideal S1000x1000 .f32) (b : Fin 15) (c : Fin 1000) :
    cntBlk (F := Ideal) x (ix2 b c) = ∑ r : Fin 1000, Cert.Hist.inBin (x (ix2 r c)) (BitVec.ofNat 32 b.val) := by
  unfold cntBlk
  rw [stack_apply]
  unfold cntRow
  rw [colSum_apply]
  exact Finset.sum_congr rfl fun r _ => maskOf_apply _ x (ix2 r c)

theorem confBlk_apply (x : Vec Ideal S1000x1000 .f32) (b : Fin 15) (c : Fin 1000) :
    confBlk (F := Ideal) x (ix2 b c)
      = ∑ r : Fin 1000, Cert.Hist.inBin (x (ix2 r c)) (BitVec.ofNat 32 b.val) * x (ix2 r c) := by
  unfold confBlk
  rw [stack_apply]
  unfold confRow
  rw [colSum_apply]
  refine Finset.sum_congr rfl fun r _ => ?_
  rw [mulf_apply, maskOf_apply]

theorem corrBlk_apply (x : Vec Ideal S1000x1000 .f32) (l : Vec Ideal S1000x1 .i32) (b : Fin 15) (c : Fin 1000) :
    corrBlk (F := Ideal) x l (ix2 b c)
      = ∑ r : Fin 1000, Cert.Hist.inBin (x (ix2 r c)) (BitVec.ofNat 32 b.val)
          * Cert.Hist.isLabel (l (ix2 r (0 : Fin 1))) (BitVec.ofNat 32 c.val) := by
  unfold corrBlk
  rw [stack_apply]
  unfold corrRow
  rw [colSum_apply]
  refine Finset.sum_congr rfl fun r _ => ?_
  rw [mulf_apply, maskOf_apply, labelOf_apply]

end Cert.KernelIdeal.BlockAt

end
-- ==== Proof.KEntry.lean ====
/-
  What a step's input blocks are, in terms of the program's arguments.

  Step t's block of confidences is rows 1000 t .. 1000 t + 999 of the argument table; its block of labels is the same
  rows of the label vector, which the program views as one column before the region.
-/
import proofs.«109215_j47012712022077_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Entry

open Cert.KernelIdeal Cert.KernelIdeal.Gen

variable {F : FTy → Type} [FloatOps F]
variable (m : (ℓ : Loc nD τ sig) → Buf (Elt F) ℓ)

/-- Entry (r, cc) of step t's block of confidences is entry (1000 t + r, cc) of the argument table: a block's
    coordinate along an axis is its block index times the block length plus the coordinate inside the block, and the
    block index at step t is (t, 0). -/
theorem xblk_apply (c : Dev nD) (t : Fin cfg0.N) (r cc : Fin 1000) (h : 1000 * t.val + r.val < 50000) :
    (iblk m c 0 t : Vec F S1000x1000 .f32) (ix2 r cc)
      = (m ((c : Thread nD τ).loc main_arg0) : Vec F S50000x1000 .f32) (ix2 ⟨1000 * t.val + r.val, h⟩ cc) := by
  have hi : ∀ t : Fin cfg0.N, win0_0.index t 0 = t.val ∧ win0_0.index t 1 = 0 :=
    (by decide +kernel : ∀ t : Fin grid0.N, win0_0.index t 0 = t.val ∧ win0_0.index t 1 = 0)
  unfold iblk
  rw [View.read_apply]
  show V m c main_arg0 _ = _
  rw [V_main_arg0]
  congr 1
  funext a
  apply Fin.ext
  match a with
  | ⟨0, _⟩ => show win0_0.index t 0 * 1000 + 1 * r.val = 1000 * t.val + r.val; rw [(hi t).1]; omega
  | ⟨1, _⟩ => show win0_0.index t 1 * 1000 + 1 * cc.val = cc.val; rw [(hi t).2]; omega

/-- Entry (r, 0) of step t's block of labels is entry 1000 t + r of the label vector: the one-column view of the vector
    holds at (n, 0) what the vector holds at n (the same row-major position n * 1 + 0 = n), and the block index at
    step t is (t, 0). -/
theorem lblk_apply (c : Dev nD) (t : Fin cfg0.N) (r : Fin 1000) (h : 1000 * t.val + r.val < 50000) :
    (iblk m c 1 t : Vec F S1000x1 .i32) (ix2 r (0 : Fin 1))
      = (m ((c : Thread nD τ).loc main_arg1) : Vec F S50000 .i32) (ix1 ⟨1000 * t.val + r.val, h⟩) := by
  have hi : ∀ t : Fin cfg0.N, win0_1.index t 0 = t.val ∧ win0_1.index t 1 = 0 :=
    (by decide +kernel : ∀ t : Fin grid0.N, win0_1.index t 0 = t.val ∧ win0_1.index t 1 = 0)
  -- the column the region finds is the label vector viewed as [50000, 1]
  have e : (V m c main_v0 : S50000x1.Idx → Elt F .i32)
      = shapeCast S50000x1 (m ((c : Thread nD τ).loc main_arg1)) shapeCasts_S50000_S50000x1 := by
    dsimp only [Gen.V, Gen.V0]
    simp only [Gen.hostOps0, List.flatten_cons, List.flatten_nil, List.append_nil]
    after_results
    rfl
  unfold iblk
  rw [View.read_apply]
  show V m c main_v0 _ = _
  rw [e]
  -- both indices sit at row-major position 1000 t + r
  refine shapeCast_apply _ shapeCasts_S50000_S50000x1 _ _ ?_
  rewrite [Shape.rowMajor_val_one, Shape.rowMajor_val_two]
  show 1000 * t.val + r.val = (win0_1.index t 0 * 1000 + 1 * r.val) * 1 + (win0_1.index t 1 * 1 + 1 * 0)
  rw [(hi t).1, (hi t).2]
  omega

end Cert.KernelIdeal.Entry

end
-- ==== Proof.KSum.lean ====
/-
  The accumulators after the last step, cell by cell, are the histograms of the whole table.

  After step n cell (b, c) of an accumulator is zero plus the sum of the steps' contributions at that cell; a step's
  contribution is a sum over its 1000 rows, which are rows 1000 t + r of the table; so after the fiftieth step the
  cell is zero plus the sum over all 50000 rows, in the order the rows come. Nothing is reordered beyond regrouping
  consecutive rows, and no entry needs to be finite.
-/
import proofs.«109215_j47012712022077_1_alg».proof.Proof.KAccum
import proofs.«109215_j47012712022077_1_alg».proof.Proof.KBlockAt
import proofs.«109215_j47012712022077_1_alg».proof.Proof.KEntry
import proofs.«109215_j47012712022077_1_alg».proof.Proof.HistSpec
import Idealize.ShloMosaic.Lib.ValueIdx

noncomputable section

open Idealize.ShloMosaic Idealize.ShloMosaic.TcCoe Idealize.SL.Sem Idealize.ShloMosaic.ValueIdx

namespace Cert.KernelIdeal.Sums

open Cert.KernelIdeal Cert.KernelIdeal.Gen Cert.KernelIdeal.Blocks Cert.KernelIdeal.Accum

variable (m : (ℓ : Loc nD τ sig) → Buf (Elt Ideal) ℓ)

/-- The argument table and label vector on core `c`, at their literal types. -/
abbrev argX (c : Dev nD) : Cert.Hist.S50000x1000.Idx → EReal := m ((c : Thread nD τ).loc main_arg0)
abbrev argL (c : Dev nD) : Cert.Hist.S50000.Idx → BitVec 32 := m ((c : Thread nD τ).loc main_arg1)

/-- A row term continued by zero past the last row, so that it can be summed over initial segments of ℕ. -/
def ext (g : Fin 50000 → EReal) (k : ℕ) : EReal := if hk : k < 50000 then g ⟨k, hk⟩ else 0

theorem ext_lt (g : Fin 50000 → EReal) (k : ℕ) (hk : k < 50000) : ext g k = g ⟨k, hk⟩ := dif_pos hk

/-- Consecutive terms regroup: the first `1000 (n + 1)` terms are the first `1000 n` followed by the next 1000. -/
theorem sum_range_block (f : ℕ → EReal) (n : ℕ) :
    ∑ k ∈ Finset.range (1000 * (n + 1)), f k
      = ∑ k ∈ Finset.range (1000 * n), f k + ∑ r ∈ Finset.range 1000, f (1000 * n + r) := by
  rw [Nat.mul_succ, Finset.sum_range_add]

/-- A running sum that starts from `z` and at step `t` adds the 1000 consecutive terms `1000 t .. 1000 t + 999` is,
    after step `n`, `z` plus the first `1000 (n + 1)` terms, in their order (associativity of addition only). -/
theorem running_closed (z : EReal) (f : ℕ → EReal) (acc blk : (n : ℕ) → n < cfg0.N → EReal)
    (h0 : ∀ h, acc 0 h = z + blk 0 h)
    (hs : ∀ n (h : n + 1 < cfg0.N), acc (n + 1) h = acc n (Nat.lt_of_succ_lt h) + blk (n + 1) h)
    (hb : ∀ n h, blk n h = ∑ r ∈ Finset.range 1000, f (1000 * n + r)) :
    ∀ n h, acc n h = z + ∑ k ∈ Finset.range (1000 * (n + 1)), f k := by
  intro n
  induction n with
  | zero =>
    intro h
    rw [h0, hb, sum_range_block]
    simp
  | succ n ih =>
    intro h
    rw [hs, ih, hb, sum_range_block f (n + 1), add_assoc]

/-- The same after the last step, with the terms indexed by the 50000 rows: the running sum is `z` plus the sum
    over all rows. -/
theorem last_closed (z : EReal) (g : Fin 50000 → EReal) (acc blk : (n : ℕ) → n < cfg0.N → EReal)
    (h0 : ∀ h, acc 0 h = z + blk 0 h)
    (hs : ∀ n (h : n + 1 < cfg0.N), acc (n + 1) h = acc n (Nat.lt_of_succ_lt h) + blk (n + 1) h)
    (hb : ∀ n (h : n < cfg0.N) (hr : ∀ r : Fin 1000, 1000 * n + r.val < 50000),
      blk n h = ∑ r : Fin 1000, g ⟨1000 * n + r.val, hr r⟩)
    (h : 49 < cfg0.N) : acc 49 h = z + ∑ k : Fin 50000, g k := by
  have hN : cfg0.N = 50 := N_0
  have hb' : ∀ n h, blk n h = ∑ r ∈ Finset.range 1000, ext g (1000 * n + r) := by
    intro n hn
    have hr : ∀ r : Fin 1000, 1000 * n + r.val < 50000 := fun r => by
      have := r.isLt
      omega
    rw [hb n hn hr, Finset.sum_range]
    exact Finset.sum_congr rfl fun r _ => (ext_lt g _ (hr r)).symm
  have e := running_closed z (ext g) acc blk h0 hs hb' 49 h
  rw [show (1000 * (49 + 1) : ℕ) = 50000 from rfl] at e
  rw [e, Finset.sum_range]
  exact congrArg (z + ·) (Finset.sum_congr rfl fun k _ => ext_lt g _ k.isLt)

theorem accCnt_last (c : Dev nD) (h : 49 < cfg0.N) (b : Fin 15) (cc : Fin 1000) :
    accCnt (F := Ideal) m c 49 h (ix2 b cc) = Cert.Hist.cnt (argX m c) (ix2 cc b) := by
  refine last_closed (Ideal.ofBits .f32 0x00000000#32) (Cert.Hist.cntTerm (argX m c) cc b)
    (fun n hn => accCnt (F := Ideal) m c n hn (ix2 b cc))
    (fun n hn => cntBlk (F := Ideal) (xblk m c ⟨n, hn⟩) (ix2 b cc)) ?_ ?_ ?_ h
  · intro h0
    rfl
  · intro n hn
    rfl
  · intro n hn hr
    rw [BlockAt.cntBlk_apply]
    refine Finset.sum_congr rfl fun r _ => ?_
    rw [Cert.Hist.cntTerm]
    rw [show xblk m c ⟨n, hn⟩ (ix2 r cc) = argX m c (ix2 ⟨1000 * n + r.val, hr r⟩ cc) from
      Entry.xblk_apply m c ⟨n, hn⟩ r cc (hr r)]

theorem accConf_last (c : Dev nD) (h : 49 < cfg0.N) (b : Fin 15) (cc : Fin 1000) :
    accConf (F := Ideal) m c 49 h (ix2 b cc) = Cert.Hist.conf (argX m c) (ix2 cc b) := by
  refine last_closed (Ideal.ofBits .f32 0x00000000#32) (Cert.Hist.confTerm (argX m c) cc b)
    (fun n hn => accConf (F := Ideal) m c n hn (ix2 b cc))
    (fun n hn => confBlk (F := Ideal) (xblk m c ⟨n, hn⟩) (ix2 b cc)) ?_ ?_ ?_ h
  · intro h0
    rfl
  · intro n hn
    rfl
  · intro n hn hr
    rw [BlockAt.confBlk_apply]
    refine Finset.sum_congr rfl fun r _ => ?_
    rw [Cert.Hist.confTerm]
    rw [show xblk m c ⟨n, hn⟩ (ix2 r cc) = argX m c (ix2 ⟨1000 * n + r.val, hr r⟩ cc) from
      Entry.xblk_apply m c ⟨n, hn⟩ r cc (hr r)]

theorem accCorr_last (c : Dev nD) (h : 49 < cfg0.N) (b : Fin 15) (cc : Fin 1000) :
    accCorr (F := Ideal) m c 49 h (ix2 b cc) = Cert.Hist.corr (argX m c) (argL m c) (ix2 cc b) := by
  refine last_closed (Ideal.ofBits .f32 0x00000000#32) (Cert.Hist.corrTerm (argX m c) (argL m c) cc b)
    (fun n hn => accCorr (F := Ideal) m c n hn (ix2 b cc))
    (fun n hn => corrBlk (F := Ideal) (xblk m c ⟨n, hn⟩) (lblk m c ⟨n, hn⟩) (ix2 b cc)) ?_ ?_ ?_ h
  · intro h0
    rfl
  · intro n hn
    rfl
  · intro n hn hr
    rw [BlockAt.corrBlk_apply]
    refine Finset.sum_congr rfl fun r _ => ?_
    rw [Cert.Hist.corrTerm]
    rw [show xblk m c ⟨n, hn⟩ (ix2 r cc) = argX m c (ix2 ⟨1000 * n + r.val, hr r⟩ cc) from
        Entry.xblk_apply m c ⟨n, hn⟩ r cc (hr r),
      show lblk m c ⟨n, hn⟩ (ix2 r (0 : Fin 1)) = argL m c (ix1 ⟨1000 * n + r.val, hr r⟩) from
        Entry.lblk_apply m c ⟨n, hn⟩ r (hr r)]

end Cert.KernelIdeal.Sums

end
-- ==== Proof.KRun.lean ====
/-
  The kernel program's run, read: its scalar result is the shared tail of the three histograms.

  The three outputs are written back once, after the last grid step, and their one block is the whole [15, 1000]
  array; so after the region each output array holds the running sum after step 49. The host lines after the region
  transpose the three arrays to [1000, 15] and apply the tail; cell (c, b) of a transposed array is cell (b, c) of the
  running sum, which is the histogram's cell (c, b).
-/
import proofs.«109215_j47012712022077_1_alg».proof.Proof.Gen.KernelIdeal.Frame
import proofs.«109215_j47012712022077_1_alg».proof.Proof.KAccum
import proofs.«109215_j47012712022077_1_alg».proof.Proof.KSum
import proofs.«109215_j47012712022077_1_alg».proof.Proof.HistSpec
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Accum Cert.KernelIdeal.Sums

section AnyInstance

variable {F : FTy → Type} [FloatOps F]
variable (m : (ℓ : Loc nD τ sig) → Buf (Elt F) ℓ) (ρ : Dev nD → PrngReg)

theorem h49 : 49 < cfg0.N := by rw [show cfg0.N = 50 from N_0]; decide

/-- The last grid step. -/
abbrev t49 : Fin cfg0.N := ⟨49, h49⟩

theorem flushed_2 (c : Dev nD) (t : Fin cfg0.N) (hf : (cfg0.win 2).flush t = true) :
    (dats m 0 c).flushed 2 t = ((cfg0.win 2).blk t).view.read (Elt F) (accCnt m c 49 h49) := by
  have hN : cfg0.N = 50 := N_0
  have h3 : t.val = 49 := by have := (flush0_2 t).mp hf; have := t.isLt; omega
  obtain rfl : t = t49 := Fin.ext h3
  show (cfg0.win 2).cut (grid0.coords t49) ((dats m 0 c).after 2 t49) = _
  rw [after0_2, (outs_last m c h49).1]
  have hz' : (fun a => win0_2.index t49 a * main_v1_0.ty.shape.size a) = fun _ => 0 :=
    funext fun a => by fin_cases a <;> decide +kernel
  exact (Memref.read_access_unit_zero (Elt F) main_v1_0 hz' (fun a => by rw [congrFun hz' a]; simp) (accCnt m c 49 h49)).symm

/-- Every cell of output 2's array lies in the block written back after the last step. -/
theorem cover_2 (c : Dev nD) (i : ((cfg0.win 2).arr.view.loc (c.tc : Thread nD τ)).2.ty.Idx) :
    ∃ t : Fin cfg0.N, (cfg0.win 2).flush t = true ∧ i ∈ ((cfg0.win 2).blk t).view.set := by
  refine ⟨t49, (flush0_2 t49).mpr rfl, ?_⟩
  show i ∈ ((View.whole main_v1_0).slice (win0_2.rect t49)).set
  rw [View.set_slice_whole, Rect.mem_set_unit]
  intro a
  have h0 : (i 0 : Nat) < 15 := (i 0).isLt
  have h1 : (i 1 : Nat) < 1000 := (i 1).isLt
  match a with
  | ⟨0, _⟩ =>
    show win0_2.index t49 0 * win0_2.size 0 ≤ (i 0 : Nat) ∧ (i 0 : Nat) < win0_2.index t49 0 * win0_2.size 0 + win0_2.xsize (grid0.coords t49) 0
    rw [show win0_2.index t49 0 * win0_2.size 0 = 0 from by decide +kernel, show win0_2.xsize (grid0.coords t49) 0 = 15 from by decide +kernel]; omega
  | ⟨1, _⟩ =>
    show win0_2.index t49 1 * win0_2.size 1 ≤ (i 1 : Nat) ∧ (i 1 : Nat) < win0_2.index t49 1 * win0_2.size 1 + win0_2.xsize (grid0.coords t49) 1
    rw [show win0_2.index t49 1 * win0_2.size 1 = 0 from by decide +kernel, show win0_2.xsize (grid0.coords t49) 1 = 1000 from by decide +kernel]; omega

/-- After the region output 2's array holds the running sum after the last step. -/
theorem final_2 (c : Dev nD) : (dats m 0 c).arrAt 2 cfg0.N = accCnt m c 49 h49 :=
  (dats m 0 c).arrAt_eq_of_cover 2 (accCnt m c 49 h49) (flushed_2 m c) (cover_2 c)

theorem flushed_3 (c : Dev nD) (t : Fin cfg0.N) (hf : (cfg0.win 3).flush t = true) :
    (dats m 0 c).flushed 3 t = ((cfg0.win 3).blk t).view.read (Elt F) (accConf m c 49 h49) := by
  have hN : cfg0.N = 50 := N_0
  have h3 : t.val = 49 := by have := (flush0_3 t).mp hf; have := t.isLt; omega
  obtain rfl : t = t49 := Fin.ext h3
  show (cfg0.win 3).cut (grid0.coords t49) ((dats m 0 c).after 3 t49) = _
  rw [after0_3, (outs_last m c h49).2.1]
  have hz' : (fun a => win0_3.index t49 a * main_v1_1.ty.shape.size a) = fun _ => 0 :=
    funext fun a => by fin_cases a <;> decide +kernel
  exact (Memref.read_access_unit_zero (Elt F) main_v1_1 hz' (fun a => by rw [congrFun hz' a]; simp) (accConf m c 49 h49)).symm

/-- Every cell of output 3's array lies in the block written back after the last step. -/
theorem cover_3 (c : Dev nD) (i : ((cfg0.win 3).arr.view.loc (c.tc : Thread nD τ)).2.ty.Idx) :
    ∃ t : Fin cfg0.N, (cfg0.win 3).flush t = true ∧ i ∈ ((cfg0.win 3).blk t).view.set := by
  refine ⟨t49, (flush0_3 t49).mpr rfl, ?_⟩
  show i ∈ ((View.whole main_v1_1).slice (win0_3.rect t49)).set
  rw [View.set_slice_whole, Rect.mem_set_unit]
  intro a
  have h0 : (i 0 : Nat) < 15 := (i 0).isLt
  have h1 : (i 1 : Nat) < 1000 := (i 1).isLt
  match a with
  | ⟨0, _⟩ =>
    show win0_3.index t49 0 * win0_3.size 0 ≤ (i 0 : Nat) ∧ (i 0 : Nat) < win0_3.index t49 0 * win0_3.size 0 + win0_3.xsize (grid0.coords t49) 0
    rw [show win0_3.index t49 0 * win0_3.size 0 = 0 from by decide +kernel, show win0_3.xsize (grid0.coords t49) 0 = 15 from by decide +kernel]; omega
  | ⟨1, _⟩ =>
    show win0_3.index t49 1 * win0_3.size 1 ≤ (i 1 : Nat) ∧ (i 1 : Nat) < win0_3.index t49 1 * win0_3.size 1 + win0_3.xsize (grid0.coords t49) 1
    rw [show win0_3.index t49 1 * win0_3.size 1 = 0 from by decide +kernel, show win0_3.xsize (grid0.coords t49) 1 = 1000 from by decide +kernel]; omega

/-- After the region output 3's array holds the running sum after the last step. -/
theorem final_3 (c : Dev nD) : (dats m 0 c).arrAt 3 cfg0.N = accConf m c 49 h49 :=
  (dats m 0 c).arrAt_eq_of_cover 3 (accConf m c 49 h49) (flushed_3 m c) (cover_3 c)

theorem flushed_4 (c : Dev nD) (t : Fin cfg0.N) (hf : (cfg0.win 4).flush t = true) :
    (dats m 0 c).flushed 4 t = ((cfg0.win 4).blk t).view.read (Elt F) (accCorr m c 49 h49) := by
  have hN : cfg0.N = 50 := N_0
  have h3 : t.val = 49 := by have := (flush0_4 t).mp hf; have := t.isLt; omega
  obtain rfl : t = t49 := Fin.ext h3
  show (cfg0.win 4).cut (grid0.coords t49) ((dats m 0 c).after 4 t49) = _
  rw [after0_4, (outs_last m c h49).2.2]
  have hz' : (fun a => win0_4.index t49 a * main_v1_2.ty.shape.size a) = fun _ => 0 :=
    funext fun a => by fin_cases a <;> decide +kernel
  exact (Memref.read_access_unit_zero (Elt F) main_v1_2 hz' (fun a => by rw [congrFun hz' a]; simp) (accCorr m c 49 h49)).symm

/-- Every cell of output 4's array lies in the block written back after the last step. -/
theorem cover_4 (c : Dev nD) (i : ((cfg0.win 4).arr.view.loc (c.tc : Thread nD τ)).2.ty.Idx) :
    ∃ t : Fin cfg0.N, (cfg0.win 4).flush t = true ∧ i ∈ ((cfg0.win 4).blk t).view.set := by
  refine ⟨t49, (flush0_4 t49).mpr rfl, ?_⟩
  show i ∈ ((View.whole main_v1_2).slice (win0_4.rect t49)).set
  rw [View.set_slice_whole, Rect.mem_set_unit]
  intro a
  have h0 : (i 0 : Nat) < 15 := (i 0).isLt
  have h1 : (i 1 : Nat) < 1000 := (i 1).isLt
  match a with
  | ⟨0, _⟩ =>
    show win0_4.index t49 0 * win0_4.size 0 ≤ (i 0 : Nat) ∧ (i 0 : Nat) < win0_4.index t49 0 * win0_4.size 0 + win0_4.xsize (grid0.coords t49) 0
    rw [show win0_4.index t49 0 * win0_4.size 0 = 0 from by decide +kernel, show win0_4.xsize (grid0.coords t49) 0 = 15 from by decide +kernel]; omega
  | ⟨1, _⟩ =>
    show win0_4.index t49 1 * win0_4.size 1 ≤ (i 1 : Nat) ∧ (i 1 : Nat) < win0_4.index t49 1 * win0_4.size 1 + win0_4.xsize (grid0.coords t49) 1
    rw [show win0_4.index t49 1 * win0_4.size 1 = 0 from by decide +kernel, show win0_4.xsize (grid0.coords t49) 1 = 1000 from by decide +kernel]; omega

/-- After the region output 4's array holds the running sum after the last step. -/
theorem final_4 (c : Dev nD) : (dats m 0 c).arrAt 4 cfg0.N = accCorr m c 49 h49 :=
  (dats m 0 c).arrAt_eq_of_cover 4 (accCorr m c 49 h49) (flushed_4 m c) (cover_4 c)

/-- The three transposed running sums the host tail is applied to. -/
abbrev tCnt (c : Dev nD) : FVec F S1000x15 .f32 := transpose S1000x15 [1, 0] (accCnt m c 49 h49) transposes_S15x1000_S1000x15_1_0
abbrev tConf (c : Dev nD) : FVec F S1000x15 .f32 := transpose S1000x15 [1, 0] (accConf m c 49 h49) transposes_S15x1000_S1000x15_1_0
abbrev tCorr (c : Dev nD) : FVec F S1000x15 .f32 := transpose S1000x15 [1, 0] (accCorr m c 49 h49) transposes_S15x1000_S1000x15_1_0

set_option maxHeartbeats 2000000 in
/-- The host lines after the region, from ANY contents `W` of the core's buffers: the result is the tail of the three
    transposed output arrays as `W` has them. -/
theorem tail_of (W : Valuation τ sig (Elt F)) :
    StableHlo.after (hostOps1 ++ hostOps1_1 ++ hostOps1_2) W (Proc.devRef .tc main_v19)
      = Cert.Hist.tail (F := F) bcast_S_S1000x15 reducesTo_S1000x15_S1000_d1 h_S_ reducesTo_S1000_S_d0
          (transpose S1000x15 [1, 0] (W (Proc.devRef .tc main_v1_0)) transposes_S15x1000_S1000x15_1_0)
          (transpose S1000x15 [1, 0] (W (Proc.devRef .tc main_v1_1)) transposes_S15x1000_S1000x15_1_0)
          (transpose S1000x15 [1, 0] (W (Proc.devRef .tc main_v1_2)) transposes_S15x1000_S1000x15_1_0) := by
  simp only [hostOps1, hostOps1_1, hostOps1_2, List.cons_append, List.nil_append]
  after_results_simp
  simp only [StableHlo.TRef.ofBuf, StableHlo.TRef.toBuf, cast_eq]
  rfl

/-- So after the whole program the result buffer holds the tail of the three transposed running sums. -/
theorem tail_eq (c : Dev nD) :
    Pipeline.afterTail₀ cfgs (dats m) 0 (V0 m) [hostOps1, hostOps1_1, hostOps1_2] c main_v19
      = Cert.Hist.tail (F := F) bcast_S_S1000x15 reducesTo_S1000x15_S1000_d1 h_S_ reducesTo_S1000_S_d0
          (tCnt m c) (tConf m c) (tCorr m c) := by
  unfold Pipeline.afterTail₀
  rw [show ([hostOps1, hostOps1_1, hostOps1_2] : List (List (HloOp τ sig (Elt F)))).flatten
      = hostOps1 ++ hostOps1_1 ++ hostOps1_2 from by
        simp only [List.flatten_cons, List.flatten_nil, List.append_nil, List.append_assoc]]
  rw [tail_of]
  have e2 : Pipeline.withArrays (cfgs 0).spec c (V0 m c) (fun w => (dats m 0 c).arrAt w (cfgs 0).N)
      (Proc.devRef .tc main_v1_0) = accCnt m c 49 h49 :=
    (Pipeline.withArrays_arr spec0 launch0.win.arr_inj c _ _ 2).trans (final_2 m c)
  have e3 : Pipeline.withArrays (cfgs 0).spec c (V0 m c) (fun w => (dats m 0 c).arrAt w (cfgs 0).N)
      (Proc.devRef .tc main_v1_1) = accConf m c 49 h49 :=
    (Pipeline.withArrays_arr spec0 launch0.win.arr_inj c _ _ 3).trans (final_3 m c)
  have e4 : Pipeline.withArrays (cfgs 0).spec c (V0 m c) (fun w => (dats m 0 c).arrAt w (cfgs 0).N)
      (Proc.devRef .tc main_v1_2) = accCorr m c 49 h49 :=
    (Pipeline.withArrays_arr spec0 launch0.win.arr_inj c _ _ 4).trans (final_4 m c)
  rw [e2, e3, e4]

/-- The run, read, at any float instance: the result buffer at the tail of the three transposed running sums, the
    arguments unchanged. -/
theorem run_any : θ_run defs (onTc (τ := τ) (main (F := F))) ⟨m, fun _ => 0, ρ⟩ fun r => ∀ c : Dev nD,
      r.2.mem ((c.tc : Thread nD τ).loc main_v19)
        = Cert.Hist.tail (F := F) bcast_S_S1000x15 reducesTo_S1000x15_S1000_d1 h_S_ reducesTo_S1000_S_d0
            (tCnt m c) (tConf m c) (tCorr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v19 (Pipeline.mem_restRefs_of main_v19 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans
        (W_main_arg1 m (dats m) c)⟩)
    (run_main m ρ)

end AnyInstance

/-! ## Over the extended reals: the transposed running sums are the histograms -/

section AtIdeal

variable (m : (ℓ : Loc nD τ sig) → Buf (Elt Ideal) ℓ) (ρ : Dev nD → PrngReg)

/-- Cell (c, b) of a transposed running sum is its cell (b, c): the histogram's cell (c, b). -/
theorem tCnt_eq (c : Dev nD) : tCnt (F := Ideal) m c = Cert.Hist.cnt (argX m c) := by
  funext i
  obtain ⟨cc, b, rfl⟩ : ∃ (cc : Fin 1000) (b : Fin 15), i = ix2 cc b := ⟨i 0, i 1, eq_ix2 i⟩
  exact (transpose_ix2_apply _ _ cc b).trans (accCnt_last m c h49 b cc)

theorem tConf_eq (c : Dev nD) : tConf (F := Ideal) m c = Cert.Hist.conf (argX m c) := by
  funext i
  obtain ⟨cc, b, rfl⟩ : ∃ (cc : Fin 1000) (b : Fin 15), i = ix2 cc b := ⟨i 0, i 1, eq_ix2 i⟩
  exact (transpose_ix2_apply _ _ cc b).trans (accConf_last m c h49 b cc)

theorem tCorr_eq (c : Dev nD) : tCorr (F := Ideal) m c = Cert.Hist.corr (argX m c) (argL m c) := by
  funext i
  obtain ⟨cc, b, rfl⟩ : ∃ (cc : Fin 1000) (b : Fin 15), i = ix2 cc b := ⟨i 0, i 1, eq_ix2 i⟩
  exact (transpose_ix2_apply _ _ cc b).trans (accCorr_last m c h49 b cc)

/-- The idealized kernel program's run: its scalar is the tail of the three histograms of its arguments. -/
theorem run : θ_run defs (onTc (τ := τ) (main (F := Ideal))) ⟨m, fun _ => 0, ρ⟩ fun r => ∀ c : Dev nD,
      r.2.mem ((c.tc : Thread nD τ).loc main_v19)
        = Cert.Hist.tail (F := Ideal) bcast_S_S1000x15 reducesTo_S1000x15_S1000_d1 h_S_ reducesTo_S1000_S_d0
            (Cert.Hist.cnt (argX m c)) (Cert.Hist.conf (argX m c)) (Cert.Hist.corr (argX m c) (argL m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨by rw [(h c).1, tCnt_eq, tConf_eq, tCorr_eq], (h c).2⟩) (run_any m ρ)

end AtIdeal

end Cert.KernelIdeal.Run

end
-- ==== Proof.lean ====
/-
  The certificate of the class-wise calibration kernel against its reference.

  Both programs turn a table of confidences X : [50000, 1000] and labels L : [50000] into three [1000, 15] histograms —
  per class and confidence bin the number of entries, their sum, and the number that sit in the labelled column — and
  then into one scalar by the same host operations (HistSpec: `cnt`, `conf`, `corr`, `tail`). The kernel accumulates
  the histograms over fifty grid steps of a thousand rows (Blocks, Pieces, Accum, BlockAt, Entry, Sums, Run); the
  reference scatters every entry to the cell `15 c + bin` (Scatter, Seg, RefHist). Over the extended reals both are
  zero plus the sum over the rows of the same summands, regrouped but never reordered across infinities: addition of
  extended reals is commutative and associative, and a zero-or-one factor times any extended real is zero or that
  real. So the claim needs nothing of the entries: the precondition is never opened.
  The three frames are the generated ones (the reference's is its run with the result dropped); the ideal pass rewrote
  nothing, so `preserves` is trivial.
-/
import proofs.«109215_j47012712022077_1_alg».proof.Defs
import proofs.«109215_j47012712022077_1_alg».proof.Proof.Gen.Kernel
import proofs.«109215_j47012712022077_1_alg».proof.Proof.Gen.Kernel.Frame
import proofs.«109215_j47012712022077_1_alg».proof.Proof.Gen.KernelIdeal
import proofs.«109215_j47012712022077_1_alg».proof.Proof.Gen.KernelIdeal.Frame
import proofs.«109215_j47012712022077_1_alg».proof.Proof.Gen.ReferenceIdeal
import proofs.«109215_j47012712022077_1_alg».proof.Proof.Gen.Pre_finite_inputs
import proofs.«109215_j47012712022077_1_alg».proof.Proof.RefRunP
import proofs.«109215_j47012712022077_1_alg».proof.Proof.RefReadP
import proofs.«109215_j47012712022077_1_alg».proof.Proof.RefHist
import proofs.«109215_j47012712022077_1_alg».proof.Proof.KRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end with the tail of the histograms of arguments that agree. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨?_, (h c).2⟩)
    (Cert.ReferenceIdeal.ValueP.run (F := Ideal) m' ρ')
  rw [(h c).1, Cert.ReferenceIdeal.ReadP.val_main_v50_eq, Cert.ReferenceIdeal.RefHist.result_eq, (hagree c).1,
    (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
